-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x32 : Shape := ⟨2, ![16384, 32]⟩
abbrev S32x4096 : Shape := ⟨2, ![32, 4096]⟩
abbrev S4096 : Shape := ⟨1, ![4096]⟩
abbrev S4096x32 : Shape := ⟨2, ![4096, 32]⟩
abbrev S32 : Shape := ⟨1, ![32]⟩
abbrev S64x4096 : Shape := ⟨2, ![64, 4096]⟩
abbrev S4096x128 : Shape := ⟨2, ![4096, 128]⟩
abbrev S128 : Shape := ⟨1, ![128]⟩
abbrev S_ : Shape := ⟨0, ![]⟩

class Facts : Prop where
  bcast_S_S16384x32 : S_.BroadcastsInDim S16384x32 (![] : Fin 0 → Fin S16384x32.rank)
  reducesTo_S16384x32_S_d0_1 : S16384x32.ReducesTo [0, 1] S_
  h_S_ : 0 < S_.numel
  bcast_S_S32x4096 : S_.BroadcastsInDim S32x4096 (![] : Fin 0 → Fin S32x4096.rank)
  reducesTo_S32x4096_S_d0_1 : S32x4096.ReducesTo [0, 1] S_
  bcast_S_S4096 : S_.BroadcastsInDim S4096 (![] : Fin 0 → Fin S4096.rank)
  reducesTo_S4096_S_d0 : S4096.ReducesTo [0] S_
  bcast_S_S4096x32 : S_.BroadcastsInDim S4096x32 (![] : Fin 0 → Fin S4096x32.rank)
  reducesTo_S4096x32_S_d0_1 : S4096x32.ReducesTo [0, 1] S_
  bcast_S_S32 : S_.BroadcastsInDim S32 (![] : Fin 0 → Fin S32.rank)
  reducesTo_S32_S_d0 : S32.ReducesTo [0] S_
  bcast_S_S64x4096 : S_.BroadcastsInDim S64x4096 (![] : Fin 0 → Fin S64x4096.rank)
  reducesTo_S64x4096_S_d0_1 : S64x4096.ReducesTo [0, 1] S_
  bcast_S_S4096x128 : S_.BroadcastsInDim S4096x128 (![] : Fin 0 → Fin S4096x128.rank)
  reducesTo_S4096x128_S_d0_1 : S4096x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S4096 .f32) (main_arg8 : FVec F S4096x128 .f32) (main_arg9 : FVec F S128 .f32) (main_v33 : IVec S_ 1) : IVec S_ 1 :=
  let main_v34 : FVec F S4096 .f32 := Host.absf main_arg7
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  let main_v39 : FVec F S4096x128 .f32 := Host.absf main_arg8
  let main_cst_14 : FVec F S_ .f32 := constant S_ .f32 0x7F800000#32
  let main_v40 : FVec F S4096x128 .f32 := broadcastInDim S4096x128 ![] bcast_S_S4096x128 main_cst_14
  let main_v41 : IVec S4096x128 1 := cmpf .olt main_v39 main_v40
  let main_c_15 : IVec S_ 1 := constantI S_ 1 1#1
  let main_v42 : IVec S_ 1 := (fun x v => Host.reduce IntOp.andi x v reducesTo_S4096x128_S_d0_1 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg4 : FVec F S4096x32 .f32) (main_arg5 : FVec F S32 .f32) (main_arg6 : FVec F S64x4096 .f32) (main_arg7 : FVec F S4096 .f32) (main_arg8 : FVec F S4096x128 .f32) (main_arg9 : FVec F S128 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096x32 .f32 := Host.absf main_arg4
  let main_cst_6 : FVec F S_ .f32 := constant S_ .f32 0x7F800000#32
  let main_v20 : FVec F S4096x32 .f32 := broadcastInDim S4096x32 ![] bcast_S_S4096x32 main_cst_6
  let main_v21 : IVec S4096x32 1 := cmpf .olt main_v19 main_v20
  let main_c_7 : IVec S_ 1 := constantI S_ 1 1#1
  let main_v22 : IVec S_ 1 := (fun x v => Host.reduce IntOp.andi x v reducesTo_S4096x32_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S64x4096 .f32 := Host.absf main_arg6
  let main_cst_10 : FVec F S_ .f32 := constant S_ .f32 0x7F800000#32
  let main_v30 : FVec F S64x4096 .f32 := broadcastInDim S64x4096 ![] bcast_S_S64x4096 main_cst_10
  let main_v31 : IVec S64x4096 1 := cmpf .olt main_v29 main_v30
  let main_c_11 : IVec S_ 1 := constantI S_ 1 1#1
  let main_v32 : IVec S_ 1 := (fun x v => Host.reduce IntOp.andi x v reducesTo_S64x4096_S_d0_1 h_S_) main_v31 main_c_11
  let main_v33 : IVec S_ 1 := andi main_v28 main_v32
  fn_part2 (F := F) main_arg7 main_arg8 main_arg9 main_v33

def fn {F : FTy → Type} [FloatOps F] (main_arg0 : FVec F S16384x32 .f32) (main_arg1 : FVec F S16384x32 .f32) (main_arg2 : FVec F S32x4096 .f32) (main_arg3 : FVec F S4096 .f32) (main_arg4 : FVec F S4096x32 .f32) (main_arg5 : FVec F S32 .f32) (main_arg6 : FVec F S64x4096 .f32) (main_arg7 : FVec F S4096 .f32) (main_arg8 : FVec F S4096x128 .f32) (main_arg9 : FVec F S128 .f32) : IVec S_ 1 :=
  let main_v0 : FVec F S16384x32 .f32 := Host.absf main_arg0
  let main_cst : FVec F S_ .f32 := constant S_ .f32 0x7F800000#32
  let main_v1 : FVec F S16384x32 .f32 := broadcastInDim S16384x32 ![] bcast_S_S16384x32 main_cst
  let main_v2 : IVec S16384x32 1 := cmpf .olt main_v0 main_v1
  let main_c : IVec S_ 1 := constantI S_ 1 1#1
  let main_v3 : IVec S_ 1 := (fun x v => Host.reduce IntOp.andi x v reducesTo_S16384x32_S_d0_1 h_S_) main_v2 main_c
  let main_v4 : FVec F S16384x32 .f32 := Host.absf main_arg1
  let main_cst_0 : FVec F S_ .f32 := constant S_ .f32 0x7F800000#32
  let main_v5 : FVec F S16384x32 .f32 := broadcastInDim S16384x32 ![] bcast_S_S16384x32 main_cst_0
  let main_v6 : IVec S16384x32 1 := cmpf .olt main_v4 main_v5
  let main_c_1 : IVec S_ 1 := constantI S_ 1 1#1
  let main_v7 : IVec S_ 1 := (fun x v => Host.reduce IntOp.andi x v reducesTo_S16384x32_S_d0_1 h_S_) main_v6 main_c_1
  let main_v8 : IVec S_ 1 := andi main_v3 main_v7
  let main_v9 : FVec F S32x4096 .f32 := Host.absf main_arg2
  let main_cst_2 : FVec F S_ .f32 := constant S_ .f32 0x7F800000#32
  let main_v10 : FVec F S32x4096 .f32 := broadcastInDim S32x4096 ![] bcast_S_S32x4096 main_cst_2
  let main_v11 : IVec S32x4096 1 := cmpf .olt main_v9 main_v10
  let main_c_3 : IVec S_ 1 := constantI S_ 1 1#1
  let main_v12 : IVec S_ 1 := (fun x v => Host.reduce IntOp.andi x v reducesTo_S32x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_arg7 main_arg8 main_arg9 main_v13 main_v16
-- ==== Kernel.lean ====
abbrev S16384x32 : Shape := ⟨2, ![16384, 32]⟩
abbrev S32x4096 : Shape := ⟨2, ![32, 4096]⟩
abbrev S4096 : Shape := ⟨1, ![4096]⟩
abbrev S4096x32 : Shape := ⟨2, ![4096, 32]⟩
abbrev S32 : Shape := ⟨1, ![32]⟩
abbrev S64x4096 : Shape := ⟨2, ![64, 4096]⟩
abbrev S4096x128 : Shape := ⟨2, ![4096, 128]⟩
abbrev S128 : Shape := ⟨1, ![128]⟩
abbrev S_ : Shape := ⟨0, ![]⟩
abbrev S16384x1 : Shape := ⟨2, ![16384, 1]⟩
abbrev S16384x33 : Shape := ⟨2, ![16384, 33]⟩
abbrev S16x1024x33 : Shape := ⟨3, ![16, 1024, 33]⟩
abbrev S16x2048x33 : Shape := ⟨3, ![16, 2048, 33]⟩
abbrev S32768x33 : Shape := ⟨2, ![32768, 33]⟩
abbrev S1x4096 : Shape := ⟨2, ![1, 4096]⟩
abbrev S33x4096 : Shape := ⟨2, ![33, 4096]⟩
abbrev S65x4096 : Shape := ⟨2, ![65, 4096]⟩
abbrev S1x32 : Shape := ⟨2, ![1, 32]⟩
abbrev S1x128 : Shape := ⟨2, ![1, 128]⟩
abbrev S16384x128 : Shape := ⟨2, ![16384, 128]⟩
abbrev S2048x33 : Shape := ⟨2, ![2048, 33]⟩
abbrev S1024x128 : Shape := ⟨2, ![1024, 128]⟩
abbrev S33x512 : Shape := ⟨2, ![33, 512]⟩
abbrev S2048x512 : Shape := ⟨2, ![2048, 512]⟩
abbrev S512x32 : Shape := ⟨2, ![512, 32]⟩
abbrev S2048x32 : Shape := ⟨2, ![2048, 32]⟩
abbrev S1024x32 : Shape := ⟨2, ![1024, 32]⟩
abbrev S1024x1 : Shape := ⟨2, ![1024, 1]⟩
abbrev S1024x65 : Shape := ⟨2, ![1024, 65]⟩
abbrev S65x512 : Shape := ⟨2, ![65, 512]⟩
abbrev S1024x512 : Shape := ⟨2, ![1024, 512]⟩
abbrev S512x128 : Shape := ⟨2, ![512, 128]⟩

abbrev nBuf : Space → Nat
  | .hbm => 31
  | .vmem => 10
  | .smem => 0
  | _ => 0

abbrev bufTy : (tb : Table) → Fin (tcTables nBuf tb) → BufTy
  | .hbm, ⟨0, _⟩ => ⟨S16384x32, .f32⟩
  | .hbm, ⟨1, _⟩ => ⟨S16384x32, .f32⟩
  | .hbm, ⟨2, _⟩ => ⟨S32x4096, .f32⟩
  | .hbm, ⟨3, _⟩ => ⟨S4096, .f32⟩
  | .hbm, ⟨4, _⟩ => ⟨S4096x32, .f32⟩
  | .hbm, ⟨5, _⟩ => ⟨S32, .f32⟩
  | .hbm, ⟨6, _⟩ => ⟨S64x4096, .f32⟩
  | .hbm, ⟨7, _⟩ => ⟨S4096, .f32⟩
  | .hbm, ⟨8, _⟩ => ⟨S4096x128, .f32⟩
  | .hbm, ⟨9, _⟩ => ⟨S128, .f32⟩
  | .hbm, ⟨10, _⟩ => ⟨S_, .f32⟩
  | .hbm, ⟨11, _⟩ => ⟨S16384x1, .f32⟩
  | .hbm, ⟨12, _⟩ => ⟨S16384x33, .f32⟩
  | .hbm, ⟨13, _⟩ => ⟨S16384x33, .bf16⟩
  | .hbm, ⟨14, _⟩ => ⟨S16384x33, .f32⟩
  | .hbm, ⟨15, _⟩ => ⟨S16384x33, .bf16⟩
  | .hbm, ⟨16, _⟩ => ⟨S16x1024x33, .bf16⟩
  | .hbm, ⟨17, _⟩ => ⟨S16x1024x33, .bf16⟩
  | .hbm, ⟨18, _⟩ => ⟨S16x2048x33, .bf16⟩
  | .hbm, ⟨19, _⟩ => ⟨S32768x33, .bf16⟩
  | .hbm, ⟨20, _⟩ => ⟨S1x4096, .f32⟩
  | .hbm, ⟨21, _⟩ => ⟨S33x4096, .f32⟩
  | .hbm, ⟨22, _⟩ => ⟨S33x4096, .bf16⟩
  | .hbm, ⟨23, _⟩ => ⟨S1x4096, .f32⟩
  | .hbm, ⟨24, _⟩ => ⟨S65x4096, .f32⟩
  | .hbm, ⟨25, _⟩ => ⟨S65x4096, .bf16⟩
  | .hbm, ⟨26, _⟩ => ⟨S4096x32, .bf16⟩
  | .hbm, ⟨27, _⟩ => ⟨S1x32, .f32⟩
  | .hbm, ⟨28, _⟩ => ⟨S4096x128, .bf16⟩
  | .hbm, ⟨29, _⟩ => ⟨S1x128, .f32⟩
  | .hbm, ⟨30, _⟩ => ⟨S16384x128, .f32⟩
  | .local _ .vmem, ⟨0, _⟩ => ⟨S2048x33, .bf16⟩
  | .local _ .vmem, ⟨1, _⟩ => ⟨S2048x33, .bf16⟩
  | .local _ .vmem, ⟨2, _⟩ => ⟨S33x4096, .bf16⟩
  | .local _ .vmem, ⟨3, _⟩ => ⟨S4096x32, .bf16⟩
  | .local _ .vmem, ⟨4, _⟩ => ⟨S1x32, .f32⟩
  | .local _ .vmem, ⟨5, _⟩ => ⟨S65x4096, .bf16⟩
  | .local _ .vmem, ⟨6, _⟩ => ⟨S4096x128, .bf16⟩
  | .local _ .vmem, ⟨7, _⟩ => ⟨S1x128, .f32⟩
  | .local _ .vmem, ⟨8, _⟩ => ⟨S1024x128, .f32⟩
  | .local _ .vmem, ⟨9, _⟩ => ⟨S1024x128, .f32⟩
  | _, _ => ⟨S16384x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x33 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S33x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x32 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S65x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S16384x1 : S_.BroadcastsInDim S16384x1 (![] : Fin 0 → Fin S16384x1.rank)
  concatenates_S16384x32_S16384x1_S16384x33_d1 : Shape.Concatenates [S16384x32, S16384x1] S16384x33 1
  bitsLt_bf16_f32 : FTy.bits .bf16 < FTy.bits .f32
  shapeCasts_S16384x33_S16x1024x33 : S16384x33.ShapeCasts S16x1024x33
  concatenates_S16x1024x33_S16x1024x33_S16x2048x33_d1 : Shape.Concatenates [S16x1024x33, S16x1024x33] S16x2048x33 1
  shapeCasts_S16x2048x33_S32768x33 : S16x2048x33.ShapeCasts S32768x33
  bcast_S4096_S1x4096_1 : S4096.BroadcastsInDim S1x4096 (![1] : Fin 1 → Fin S1x4096.rank)
  concatenates_S32x4096_S1x4096_S33x4096_d0 : Shape.Concatenates [S32x4096, S1x4096] S33x4096 0
  concatenates_S64x4096_S1x4096_S65x4096_d0 : Shape.Concatenates [S64x4096, S1x4096] S65x4096 0
  shapeCasts_S32_S1x32 : S32.ShapeCasts S1x32
  shapeCasts_S128_S1x128 : S128.ShapeCasts S1x128
  inb_S2048x33_S2048x33_0_0 : ∀ a, (![0, 0] : Fin 2 → Nat) a + S2048x33.size a ≤ S2048x33.size a
  h_S2048x33 : 0 < S2048x33.numel
  shapeCasts_S2048x33_S2048x33 : S2048x33.ShapeCasts S2048x33
  inb_S1x32_S1x32_0_0 : ∀ a, (![0, 0] : Fin 2 → Nat) a + S1x32.size a ≤ S1x32.size a
  h_S1x32 : 0 < S1x32.numel
  shapeCasts_S1x32_S1x32 : S1x32.ShapeCasts S1x32
  inb_S33x4096_S33x512_0_0 : ∀ a, (![0, 0] : Fin 2 → Nat) a + S33x512.size a ≤ S33x4096.size a
  h_S33x512 : 0 < S33x512.numel
  shapeCasts_S33x512_S33x512 : S33x512.ShapeCasts S33x512
  inb_S4096x32_S512x32_0_0 : ∀ a, (![0, 0] : Fin 2 → Nat) a + S512x32.size a ≤ S4096x32.size a
  h_S512x32 : 0 < S512x32.numel
  shapeCasts_S512x32_S512x32 : S512x32.ShapeCasts S512x32
  broadcasts_S1x32_S2048x32 : S1x32.Broadcasts S2048x32
  inb_S33x4096_S33x512_0_512 : ∀ a, (![0, 512] : Fin 2 → Nat) a + S33x512.size a ≤ S33x4096.size a
  inb_S4096x32_S512x32_512_0 : ∀ a, (![512, 0] : Fin 2 → Nat) a + S512x32.size a ≤ S4096x32.size a
  inb_S33x4096_S33x512_0_1024 : ∀ a, (![0, 1024] : Fin 2 → Nat) a + S33x512.size a ≤ S33x4096.size a
  inb_S4096x32_S512x32_1024_0 : ∀ a, (![1024, 0] : Fin 2 → Nat) a + S512x32.size a ≤ S4096x32.size a
  inb_S33x4096_S33x512_0_1536 : ∀ a, (![0, 1536] : Fin 2 → Nat) a + S33x512.size a ≤ S33x4096.size a
  inb_S4096x32_S512x32_1536_0 : ∀ a, (![1536, 0] : Fin 2 → Nat) a + S512x32.size a ≤ S4096x32.size a
  inb_S33x4096_S33x512_0_2048 : ∀ a, (![0, 2048] : Fin 2 → Nat) a + S33x512.size a ≤ S33x4096.size a
  inb_S4096x32_S512x32_2048_0 : ∀ a, (![2048, 0] : Fin 2 → Nat) a + S512x32.size a ≤ S4096x32.size a
  inb_S33x4096_S33x512_0_2560 : ∀ a, (![0, 2560] : Fin 2 → Nat) a + S33x512.size a ≤ S33x4096.size a
  inb_S4096x32_S512x32_2560_0 : ∀ a, (![2560, 0] : Fin 2 → Nat) a + S512x32.size a ≤ S4096x32.size a
  inb_S33x4096_S33x512_0_3072 : ∀ a, (![0, 3072] : Fin 2 → Nat) a + S33x512.size a ≤ S33x4096.size a
  inb_S4096x32_S512x32_3072_0 : ∀ a, (![3072, 0] : Fin 2 → Nat) a + S512x32.size a ≤ S4096x32.size a
  inb_S33x4096_S33x512_0_3584 : ∀ a, (![0, 3584] : Fin 2 → Nat) a + S33x512.size a ≤ S33x4096.size a
  inb_S4096x32_S512x32_3584_0 : ∀ a, (![3584, 0] : Fin 2 → Nat) a + S512x32.size a ≤ S4096x32.size a
  slices_S2048x32_o0_0_S1024x32 : S2048x32.Slices ![0, 0] S1024x32
  slices_S2048x32_o1024_0_S1024x32 : S2048x32.Slices ![1024, 0] S1024x32
  concatenates_S1024x32_S1024x32_S1024x1_S1024x65_d1 : Shape.Concatenates [S1024x32, S1024x32, S1024x1] S1024x65 1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S65x4096_S65x512_0_0 : ∀ a, (![0, 0] : Fin 2 → Nat) a + S65x512.size a ≤ S65x4096.size a
  h_S65x512 : 0 < S65x512.numel
  shapeCasts_S65x512_S65x512 : S65x512.ShapeCasts S65x512
  inb_S4096x128_S512x128_0_0 : ∀ a, (![0, 0] : Fin 2 → Nat) a + S512x128.size a ≤ S4096x128.size a
  h_S512x128 : 0 < S512x128.numel
  shapeCasts_S512x128_S512x128 : S512x128.ShapeCasts S512x128
  broadcasts_S1x128_S1024x128 : S1x128.Broadcasts S1024x128
  inb_S65x4096_S65x512_0_512 : ∀ a, (![0, 512] : Fin 2 → Nat) a + S65x512.size a ≤ S65x4096.size a
  inb_S4096x128_S512x128_512_0 : ∀ a, (![512, 0] : Fin 2 → Nat) a + S512x128.size a ≤ S4096x128.size a
  inb_S65x4096_S65x512_0_1024 : ∀ a, (![0, 1024] : Fin 2 → Nat) a + S65x512.size a ≤ S65x4096.size a
  inb_S4096x128_S512x128_1024_0 : ∀ a, (![1024, 0] : Fin 2 → Nat) a + S512x128.size a ≤ S4096x128.size a
  inb_S65x4096_S65x512_0_1536 : ∀ a, (![0, 1536] : Fin 2 → Nat) a + S65x512.size a ≤ S65x4096.size a
  inb_S4096x128_S512x128_1536_0 : ∀ a, (![1536, 0] : Fin 2 → Nat) a + S512x128.size a ≤ S4096x128.size a
  inb_S65x4096_S65x512_0_2048 : ∀ a, (![0, 2048] : Fin 2 → Nat) a + S65x512.size a ≤ S65x4096.size a
  inb_S4096x128_S512x128_2048_0 : ∀ a, (![2048, 0] : Fin 2 → Nat) a + S512x128.size a ≤ S4096x128.size a
  inb_S65x4096_S65x512_0_2560 : ∀ a, (![0, 2560] : Fin 2 → Nat) a + S65x512.size a ≤ S65x4096.size a
  inb_S4096x128_S512x128_2560_0 : ∀ a, (![2560, 0] : Fin 2 → Nat) a + S512x128.size a ≤ S4096x128.size a
  inb_S65x4096_S65x512_0_3072 : ∀ a, (![0, 3072] : Fin 2 → Nat) a + S65x512.size a ≤ S65x4096.size a
  inb_S4096x128_S512x128_3072_0 : ∀ a, (![3072, 0] : Fin 2 → Nat) a + S512x128.size a ≤ S4096x128.size a
  inb_S65x4096_S65x512_0_3584 : ∀ a, (![0, 3584] : Fin 2 → Nat) a + S65x512.size a ≤ S65x4096.size a
  inb_S4096x128_S512x128_3584_0 : ∀ a, (![3584, 0] : Fin 2 → Nat) a + S512x128.size a ≤ S4096x128.size a
  inb_S1024x128_S1024x128_0_0 : ∀ a, (![0, 0] : Fin 2 → Nat) a + S1024x128.size a ≤ S1024x128.size a
  h_S1024x128 : 0 < S1024x128.numel
  dot_S2048x33_S33x512_S2048x512_1_0_0_1_n_n_wf : DotDims.WF S2048x33 S33x512 S2048x512 [1] [0] [0] [1] [] []
  dot_S2048x512_S512x32_S2048x32_1_0_0_1_n_n_wf : DotDims.WF S2048x512 S512x32 S2048x32 [1] [0] [0] [1] [] []
  dot_S1024x65_S65x512_S1024x512_1_0_0_1_n_n_wf : DotDims.WF S1024x65 S65x512 S1024x512 [1] [0] [0] [1] [] []
  dot_S1024x512_S512x128_S1024x128_1_0_0_1_n_n_wf : DotDims.WF S1024x512 S512x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x33.size a ≤ S32768x33.size a
  hwx0_0 : ∀ i : grid0.Coords, EltTy.bits .bf16 = 32 ∨ (Rect.block (s := S32768x33) S2048x33.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S33x4096.size a ≤ S33x4096.size a
  hwx0_1 : ∀ i : grid0.Coords, EltTy.bits .bf16 = 32 ∨ (Rect.block (s := S33x4096) S33x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x32.size a ≤ S4096x32.size a
  hwx0_2 : ∀ i : grid0.Coords, EltTy.bits .bf16 = 32 ∨ (Rect.block (s := S4096x32) S4096x32.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S65x4096.size a ≤ S65x4096.size a
  hwx0_4 : ∀ i : grid0.Coords, EltTy.bits .bf16 = 32 ∨ (Rect.block (s := S65x4096) S65x4096.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4096x128.size a ≤ S4096x128.size a
  hwx0_5 : ∀ i : grid0.Coords, EltTy.bits .bf16 = 32 ∨ (Rect.block (s := S4096x128) S4096x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x128.size a ≤ S16384x128.size a
  hwx0_7 : ∀ i : grid0.Coords, EltTy.bits .f32 = 32 ∨ (Rect.block (s := S16384x128) S1024x128.size (cc0_transform_7 i) (hinb0_7 i)).WholeWords (EltTy.packing .f32)

variable [Facts₀]

def dot_S2048x33_S33x512_S2048x512_1_0_0_1_n_n : DotDims S2048x33 S33x512 S2048x512 where
  lhsContracting := [1]
  rhsContracting := [0]
  lhsNonContracting := [0]
  rhsNonContracting := [1]
  lhsBatch := []
  rhsBatch := []
  wf := dot_S2048x33_S33x512_S2048x512_1_0_0_1_n_n_wf
def dot_S2048x512_S512x32_S2048x32_1_0_0_1_n_n : DotDims S2048x512 S512x32 S2048x32 where
  lhsContracting := [1]
  rhsContracting := [0]
  lhsNonContracting := [0]
  rhsNonContracting := [1]
  lhsBatch := []
  rhsBatch := []
  wf := dot_S2048x512_S512x32_S2048x32_1_0_0_1_n_n_wf
def dot_S1024x65_S65x512_S1024x512_1_0_0_1_n_n : DotDims S1024x65 S65x512 S1024x512 where
  lhsContracting := [1]
  rhsContracting := [0]
  lhsNonContracting := [0]
  rhsNonContracting := [1]
  lhsBatch := []
  rhsBatch := []
  wf := dot_S1024x65_S65x512_S1024x512_1_0_0_1_n_n_wf
def dot_S1024x512_S512x128_S1024x128_1_0_0_1_n_n : DotDims S1024x512 S512x128 S1024x128 where
  lhsContracting := [1]
  rhsContracting := [0]
  lhsNonContracting := [0]
  rhsNonContracting := [1]
  lhsBatch := []
  rhsBatch := []
  wf := dot_S1024x512_S512x128_S1024x128_1_0_0_1_n_n_wf

abbrev win0_0 : Pipeline.Window sig grid0 :=
  Pipeline.Window.ofSpec (Memref.whole main_v8) S2048x33.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S33x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S4096x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S65x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S4096x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v19) S1024x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16384x32 : Shape := ⟨2, ![16384, 32]⟩
abbrev S32x4096 : Shape := ⟨2, ![32, 4096]⟩
abbrev S4096 : Shape := ⟨1, ![4096]⟩
abbrev S4096x32 : Shape := ⟨2, ![4096, 32]⟩
abbrev S32 : Shape := ⟨1, ![32]⟩
abbrev S64x4096 : Shape := ⟨2, ![64, 4096]⟩
abbrev S4096x128 : Shape := ⟨2, ![4096, 128]⟩
abbrev S128 : Shape := ⟨1, ![128]⟩
abbrev S16384x4096 : Shape := ⟨2, ![16384, 4096]⟩
abbrev S1x4096 : Shape := ⟨2, ![1, 4096]⟩
abbrev S_ : Shape := ⟨0, ![]⟩
abbrev S1x32 : Shape := ⟨2, ![1, 32]⟩
abbrev S16384x64 : Shape := ⟨2, ![16384, 64]⟩
abbrev S16384x128 : Shape := ⟨2, ![16384, 128]⟩
abbrev S1x128 : Shape := ⟨2, ![1, 128]⟩

abbrev nBuf : Space → Nat
  | .hbm => 50
  | .vmem => 0
  | .smem => 0
  | _ => 0

abbrev bufTy : (tb : Table) → Fin (tcTables nBuf tb) → BufTy
  | .hbm, ⟨0, _⟩ => ⟨S16384x32, .f32⟩
  | .hbm, ⟨1, _⟩ => ⟨S16384x32, .f32⟩
  | .hbm, ⟨2, _⟩ => ⟨S32x4096, .f32⟩
  | .hbm, ⟨3, _⟩ => ⟨S4096, .f32⟩
  | .hbm, ⟨4, _⟩ => ⟨S4096x32, .f32⟩
  | .hbm, ⟨5, _⟩ => ⟨S32, .f32⟩
  | .hbm, ⟨6, _⟩ => ⟨S64x4096, .f32⟩
  | .hbm, ⟨7, _⟩ => ⟨S4096, .f32⟩
  | .hbm, ⟨8, _⟩ => ⟨S4096x128, .f32⟩
  | .hbm, ⟨9, _⟩ => ⟨S128, .f32⟩
  | .hbm, ⟨10, _⟩ => ⟨S16384x4096, .f32⟩
  | .hbm, ⟨11, _⟩ => ⟨S1x4096, .f32⟩
  | .hbm, ⟨12, _⟩ => ⟨S16384x4096, .f32⟩
  | .hbm, ⟨13, _⟩ => ⟨S16384x4096, .f32⟩
  | .hbm, ⟨14, _⟩ => ⟨S_, .f32⟩
  | .hbm, ⟨15, _⟩ => ⟨S16384x4096, .f32⟩
  | .hbm, ⟨16, _⟩ => ⟨S16384x4096, .f32⟩
  | .hbm, ⟨17, _⟩ => ⟨S16384x32, .f32⟩
  | .hbm, ⟨18, _⟩ => ⟨S1x32, .f32⟩
  | .hbm, ⟨19, _⟩ => ⟨S16384x32, .f32⟩
  | .hbm, ⟨20, _⟩ => ⟨S16384x32, .f32⟩
  | .hbm, ⟨21, _⟩ => ⟨S_, .f32⟩
  | .hbm, ⟨22, _⟩ => ⟨S16384x32, .f32⟩
  | .hbm, ⟨23, _⟩ => ⟨S16384x32, .f32⟩
  | .hbm, ⟨24, _⟩ => ⟨S16384x4096, .f32⟩
  | .hbm, ⟨25, _⟩ => ⟨S1x4096, .f32⟩
  | .hbm, ⟨26, _⟩ => ⟨S16384x4096, .f32⟩
  | .hbm, ⟨27, _⟩ => ⟨S16384x4096, .f32⟩
  | .hbm, ⟨28, _⟩ => ⟨S_, .f32⟩
  | .hbm, ⟨29, _⟩ => ⟨S16384x4096, .f32⟩
  | .hbm, ⟨30, _⟩ => ⟨S16384x4096, .f32⟩
  | .hbm, ⟨31, _⟩ => ⟨S16384x32, .f32⟩
  | .hbm, ⟨32, _⟩ => ⟨S1x32, .f32⟩
  | .hbm, ⟨33, _⟩ => ⟨S16384x32, .f32⟩
  | .hbm, ⟨34, _⟩ => ⟨S16384x32, .f32⟩
  | .hbm, ⟨35, _⟩ => ⟨S_, .f32⟩
  | .hbm, ⟨36, _⟩ => ⟨S16384x32, .f32⟩
  | .hbm, ⟨37, _⟩ => ⟨S16384x32, .f32⟩
  | .hbm, ⟨38, _⟩ => ⟨S16384x64, .f32⟩
  | .hbm, ⟨39, _⟩ => ⟨S16384x4096, .f32⟩
  | .hbm, ⟨40, _⟩ => ⟨S1x4096, .f32⟩
  | .hbm, ⟨41, _⟩ => ⟨S16384x4096, .f32⟩
  | .hbm, ⟨42, _⟩ => ⟨S16384x4096, .f32⟩
  | .hbm, ⟨43, _⟩ => ⟨S_, .f32⟩
  | .hbm, ⟨44, _⟩ => ⟨S16384x4096, .f32⟩
  | .hbm, ⟨45, _⟩ => ⟨S16384x4096, .f32⟩
  | .hbm, ⟨46, _⟩ => ⟨S16384x128, .f32⟩
  | .hbm, ⟨47, _⟩ => ⟨S1x128, .f32⟩
  | .hbm, ⟨48, _⟩ => ⟨S16384x128, .f32⟩
  | .hbm, ⟨49, _⟩ => ⟨S16384x128, .f32⟩
  | _, _ => ⟨S16384x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_cst : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_call1_cst : Ref sig .tc := ⟨.hbm, 21, rfl⟩
abbrev main_call1_v0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_call2_cst : Ref sig .tc := ⟨.hbm, 28, rfl⟩
abbrev main_call2_v0 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_call3_cst : Ref sig .tc := ⟨.hbm, 35, rfl⟩
abbrev main_call3_v0 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_call4_cst : Ref sig .tc := ⟨.hbm, 43, rfl⟩
abbrev main_call4_v0 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  bcast_S_S16384x4096 : S_.BroadcastsInDim S16384x4096 (![] : Fin 0 → Fin S16384x4096.rank)
  bcast_S32_S1x32_1 : S32.BroadcastsInDim S1x32 (![1] : Fin 1 → Fin S1x32.rank)
  bcast_S1x32_S16384x32_0_1 : S1x32.BroadcastsInDim S16384x32 (![0, 1] : Fin 2 → Fin S16384x32.rank)
  bcast_S_S16384x32 : S_.BroadcastsInDim S16384x32 (![] : Fin 0 → Fin S16384x32.rank)
  concatenates_S16384x32_S16384x32_S16384x64_d1 : Shape.Concatenates [S16384x32, S16384x32] S16384x64 1
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  dot_S16384x32_S32x4096_S16384x4096_1_0_0_1_n_n_wf : DotDims.WF S16384x32 S32x4096 S16384x4096 [1] [0] [0] [1] [] []
  dot_S16384x4096_S4096x32_S16384x32_1_0_0_1_n_n_wf : DotDims.WF S16384x4096 S4096x32 S16384x32 [1] [0] [0] [1] [] []
  dot_S16384x64_S64x4096_S16384x4096_1_0_0_1_n_n_wf : DotDims.WF S16384x64 S64x4096 S16384x4096 [1] [0] [0] [1] [] []
  dot_S16384x4096_S4096x128_S16384x128_1_0_0_1_n_n_wf : DotDims.WF S16384x4096 S4096x128 S16384x128 [1] [0] [0] [1] [] []

variable [Facts₀]

def dot_S16384x32_S32x4096_S16384x4096_1_0_0_1_n_n : DotDims S16384x32 S32x4096 S16384x4096 where
  lhsContracting := [1]
  rhsContracting := [0]
  lhsNonContracting := [0]
  rhsNonContracting := [1]
  lhsBatch := []
  rhsBatch := []
  wf := dot_S16384x32_S32x4096_S16384x4096_1_0_0_1_n_n_wf
def dot_S16384x4096_S4096x32_S16384x32_1_0_0_1_n_n : DotDims S16384x4096 S4096x32 S16384x32 where
  lhsContracting := [1]
  rhsContracting := [0]
  lhsNonContracting := [0]
  rhsNonContracting := [1]
  lhsBatch := []
  rhsBatch := []
  wf := dot_S16384x4096_S4096x32_S16384x32_1_0_0_1_n_n_wf
def dot_S16384x64_S64x4096_S16384x4096_1_0_0_1_n_n : DotDims S16384x64 S64x4096 S16384x4096 where
  lhsContracting := [1]
  rhsContracting := [0]
  lhsNonContracting := [0]
  rhsNonContracting := [1]
  lhsBatch := []
  rhsBatch := []
  wf := dot_S16384x64_S64x4096_S16384x4096_1_0_0_1_n_n_wf
def dot_S16384x4096_S4096x128_S16384x128_1_0_0_1_n_n : DotDims S16384x4096 S4096x128 S16384x128 where
  lhsContracting := [1]
  rhsContracting := [0]
  lhsNonContracting := [0]
  rhsNonContracting := [1]
  lhsBatch := []
  rhsBatch := []
  wf := dot_S16384x4096_S4096x128_S16384x128_1_0_0_1_n_n_wf

class Facts : Prop extends Facts₀ where

variable [Facts]
-- ==== Proof.LibPlainMatmul.lean ====
/-
  A plain matrix product read at an index.

  For the dimension numbers `[1] x [0]` with no batch axes (`DotDims.plain M K N`: rows by contraction times contraction by
  columns), a `tpu.matmul` into the zero accumulator, read on the extended reals at the output index `(r, j)`, is
  `∑ k, x (r, k) * w (k, j)`, for any extents and any operand formats. A printed dot record with the same six axis lists is
  that record (its well-formedness field is a proof), so the lemma serves every such record through `rfl`.
-/
import Idealize.ShloMosaic.PureOps.Ideal.Laws
import Idealize.ShloMosaic.Lib.ValueIdx

noncomputable section

namespace Idealize.ShloMosaic.PlainMatmul

open Idealize.ShloMosaic Idealize.ShloMosaic.ValueIdx

variable (M K N : Nat)

/-- The left operand's row is the output's row. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from
      List.mem_singleton.mpr rfl)]
  rfl

/-- The left operand's column is the contraction coordinate. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction coordinate. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column is the output's column. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from
      List.mem_singleton.mpr rfl)]
  rfl

/-- A plain product into the zero accumulator, at `(r, j)`: the sum over the contraction of the row of the left operand
    against the column of the right one. -/
theorem matmul_zero_apply {φ₁ φ₂ : FTy} (x : FVec Ideal ⟨2, ![M, K]⟩ φ₁) (w : FVec Ideal ⟨2, ![K, N]⟩ φ₂)
    (r : Fin M) (j : Fin N) :
    FloatOps.matmul (DotDims.plain M K N) none x w (constant ⟨2, ![M, N]⟩ .f32 0x00000000#32) (ix2 r j)
      = ∑ k : Fin K, x (ix2 r k) * w (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r j) ((contrEquiv1 (DotDims.plain M K N) K rfl rfl).symm k) = ix2 r k :=
    funext fun a => Fin.ext (by
      match a with
      | ⟨0, _⟩ => exact lhs_row M K N _ _
      | ⟨1, _⟩ => exact (lhs_col M K N _ _).trans hk)
  have er : (DotDims.plain M K N).rhsIdx (ix2 r j) ((contrEquiv1 (DotDims.plain M K N) K rfl rfl).symm k) = ix2 k j :=
    funext fun a => Fin.ext (by
      match a with
      | ⟨0, _⟩ => exact (rhs_row M K N _ _).trans hk
      | ⟨1, _⟩ => exact rhs_col M K N _ _)
  rw [el, er]

end Idealize.ShloMosaic.PlainMatmul

end
-- ==== Proof.TwinMlp.lean ====
/-
  The function both programs compute, and the two laws of sums that join their arrangements.

  A dense layer sends a row `x` to `x · W + b`; followed by `max · 0` it is a ReLU layer. The network encodes each of two
  input rows by two ReLU layers (32 → 4096 → 32), sets the two encodings side by side (64 numbers), and applies a ReLU
  layer (64 → 4096) and a last dense layer (4096 → 128). `G` is that, row by row of the batch.

  One arrangement of the same numbers folds a bias into the product by a column of ones (`sum_snoc_one`); another cuts the
  4096 hidden units into eight runs of 512 and adds the eight partial products one after the other (`sum_eight_runs`).
  Both are regroupings of a finite sum in a commutative monoid, so they hold on the extended reals with no finiteness
  assumption.
-/
import Idealize.ShloMosaic.PureOps.Ideal
import Idealize.ShloMosaic.Lib.ValueIdx
import Mathlib.Algebra.BigOperators.Fin
import Mathlib.Tactic.Abel

noncomputable section

namespace Cert.TwinMlp

open Idealize.ShloMosaic Idealize.ShloMosaic.ValueIdx

/-- One output of a dense layer: `x · W[:, j] + b j`. -/
def dense {n h : Nat} (W : (⟨2, ![n, h]⟩ : Shape).Idx → EReal) (b : (⟨1, ![h]⟩ : Shape).Idx → EReal)
    (x : Fin n → EReal) (j : Fin h) : EReal :=
  ∑ k : Fin n, x k * W (ix2 k j) + b (ix1 j)

/-- Two rows of 32 set side by side: coordinates below 32 from the first, the others from the second. -/
def beside (u v : Fin 32 → EReal) (k : Fin 64) : EReal :=
  if h : k.val < 32 then u ⟨k.val, h⟩ else v ⟨k.val - 32, by have := k.isLt; omega⟩

/-- The encoding of one input row: two ReLU layers. -/
def encode (W1 : (⟨2, ![32, 4096]⟩ : Shape).Idx → EReal) (b1 : (⟨1, ![4096]⟩ : Shape).Idx → EReal)
    (W2 : (⟨2, ![4096, 32]⟩ : Shape).Idx → EReal) (b2 : (⟨1, ![32]⟩ : Shape).Idx → EReal)
    (x : Fin 32 → EReal) (n : Fin 32) : EReal :=
  max (dense W2 b2 (fun j => max (dense W1 b1 x j) 0) n) 0

/-- The network's output for batch row `r`, at output coordinate `a`. -/
def outAt (s s' : (⟨2, ![16384, 32]⟩ : Shape).Idx → EReal)
    (W1 : (⟨2, ![32, 4096]⟩ : Shape).Idx → EReal) (b1 : (⟨1, ![4096]⟩ : Shape).Idx → EReal)
    (W2 : (⟨2, ![4096, 32]⟩ : Shape).Idx → EReal) (b2 : (⟨1, ![32]⟩ : Shape).Idx → EReal)
    (W3 : (⟨2, ![64, 4096]⟩ : Shape).Idx → EReal) (b3 : (⟨1, ![4096]⟩ : Shape).Idx → EReal)
    (W4 : (⟨2, ![4096, 128]⟩ : Shape).Idx → EReal) (b4 : (⟨1, ![128]⟩ : Shape).Idx → EReal)
    (r : Fin 16384) (a : Fin 128) : EReal :=
  dense W4 b4 (fun j => max (dense W3 b3
    (beside (encode W1 b1 W2 b2 fun k => s (ix2 r k)) (encode W1 b1 W2 b2 fun k => s' (ix2 r k))) j) 0) a

/-- The whole output array. -/
def G (s s' : (⟨2, ![16384, 32]⟩ : Shape).Idx → EReal)
    (W1 : (⟨2, ![32, 4096]⟩ : Shape).Idx → EReal) (b1 : (⟨1, ![4096]⟩ : Shape).Idx → EReal)
    (W2 : (⟨2, ![4096, 32]⟩ : Shape).Idx → EReal) (b2 : (⟨1, ![32]⟩ : Shape).Idx → EReal)
    (W3 : (⟨2, ![64, 4096]⟩ : Shape).Idx → EReal) (b3 : (⟨1, ![4096]⟩ : Shape).Idx → EReal)
    (W4 : (⟨2, ![4096, 128]⟩ : Shape).Idx → EReal) (b4 : (⟨1, ![128]⟩ : Shape).Idx → EReal) :
    (⟨2, ![16384, 128]⟩ : Shape).Idx → EReal :=
  fun i => outAt s s' W1 b1 W2 b2 W3 b3 W4 b4 (i 0) (i 1)

theorem G_ix2 (s s' : (⟨2, ![16384, 32]⟩ : Shape).Idx → EReal)
    (W1 : (⟨2, ![32, 4096]⟩ : Shape).Idx → EReal) (b1 : (⟨1, ![4096]⟩ : Shape).Idx → EReal)
    (W2 : (⟨2, ![4096, 32]⟩ : Shape).Idx → EReal) (b2 : (⟨1, ![32]⟩ : Shape).Idx → EReal)
    (W3 : (⟨2, ![64, 4096]⟩ : Shape).Idx → EReal) (b3 : (⟨1, ![4096]⟩ : Shape).Idx → EReal)
    (W4 : (⟨2, ![4096, 128]⟩ : Shape).Idx → EReal) (b4 : (⟨1, ![128]⟩ : Shape).Idx → EReal)
    (r : Fin 16384) (a : Fin 128) :
    G s s' W1 b1 W2 b2 W3 b3 W4 b4 (ix2 r a) = outAt s s' W1 b1 W2 b2 W3 b3 W4 b4 r a := rfl

/-! ## A bias folded into the product by a column of ones -/

/-- A sum of products over `n + 1` terms whose last left factor is `1` is the sum over the first `n` plus the last right
    factor: `[x, 1] · [W; b] = x · W + b`. -/
theorem sum_snoc_one {n : Nat} (a w : Fin (n + 1) → EReal) (A B : Fin n → EReal) (c : EReal)
    (ha : ∀ k : Fin n, a k.castSucc = A k) (ha' : a (Fin.last n) = 1)
    (hw : ∀ k : Fin n, w k.castSucc = B k) (hw' : w (Fin.last n) = c) :
    ∑ k : Fin (n + 1), a k * w k = ∑ k : Fin n, A k * B k + c := by
  rw [Fin.sum_univ_castSucc]
  simp only [ha, hw, ha', hw', one_mul]

/-! ## 4096 terms in eight runs of 512 -/

/-- The terms of a sum over 4096 indices from `o` on, 512 of them. -/
def run512 (f : Fin 4096 → EReal) (o : Nat) (ho : o + 512 ≤ 4096) : EReal :=
  ∑ j : Fin 512, f ⟨o + j.val, by have := j.isLt; omega⟩

theorem sum_4096 (f : Fin 4096 → EReal) :
    ∑ i : Fin 4096, f i
      = ∑ c : Fin 8, ∑ j : Fin 512, f ⟨j.val + 512 * c.val, by have := j.isLt; have := c.isLt; omega⟩ := by
  rw [← Fintype.sum_prod_type
    (f := fun p : Fin 8 × Fin 512 => f ⟨p.2.val + 512 * p.1.val, by have := p.2.isLt; have := p.1.isLt; omega⟩)]
  exact (Fintype.sum_equiv (finProdFinEquiv (m := 8) (n := 512)) _ f (fun p => rfl)).symm

/-- Eight partial sums added one after the other onto `b` are the whole sum plus `b`. -/
theorem sum_eight_runs (f : Fin 4096 → EReal) (b : EReal) :
    b + run512 f 0 (by omega) + run512 f 512 (by omega) + run512 f 1024 (by omega) + run512 f 1536 (by omega)
      + run512 f 2048 (by omega) + run512 f 2560 (by omega) + run512 f 3072 (by omega) + run512 f 3584 (by omega)
      = ∑ i : Fin 4096, f i + b := by
  have e : ∀ (c : Fin 8) (o : Nat) (ho : o + 512 ≤ 4096), o = 512 * c.val →
      (∑ j : Fin 512, f ⟨j.val + 512 * c.val, by have := j.isLt; have := c.isLt; omega⟩) = run512 f o ho := by
    intro c o ho hc
    unfold run512
    exact Finset.sum_congr rfl fun j _ => congrArg f (Fin.ext (by show j.val + 512 * c.val = o + j.val; omega))
  rw [sum_4096, Fin.sum_univ_eight, e 0 0 (by omega) rfl, e 1 512 (by omega) rfl, e 2 1024 (by omega) rfl,
    e 3 1536 (by omega) rfl, e 4 2048 (by omega) rfl, e 5 2560 (by omega) rfl, e 6 3072 (by omega) rfl,
    e 7 3584 (by omega) rfl]
  abel

end Cert.TwinMlp

end
-- ==== Proof.BlockValue.lean ====
/-
  What one grid point's body computes, read at an index.

  The body's arithmetic is a composition of ten pure terms over the vectors it loads. Each is read here at an index
  `(r, n)` on the extended reals, over arbitrary loaded vectors: a product into the zero accumulator is a finite sum
  (the plain matrix product), the change of float format is the identity, `maximumf` against the zero splat is
  `max · 0`. A run of 512 hidden units then appears as
  `∑ j, max (∑ k, x (r, k) * w (k, j)) 0 * w2 (j, n)` (`hidden`), and the terms add eight such runs onto the bias row.
-/
import proofs.«165105_g11802570129985_cont_fleet_79_6_alg».proof.Proof.Gen.KernelIdeal.Frame
import proofs.«165105_g11802570129985_cont_fleet_79_6_alg».proof.Proof.LibPlainMatmul
import proofs.«165105_g11802570129985_cont_fleet_79_6_alg».proof.Proof.TwinMlp
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Block

open Cert.KernelIdeal Cert.KernelIdeal.Gen Idealize.ShloMosaic Idealize.ShloMosaic.ValueIdx

/-! ## The constants the body splats -/

theorem zero_bf16 : Scalar.ofBits (F := Ideal) .bf16 0x0000#16 = (0 : EReal) := IdealRules.sign_bit.ideal_zero .bf16
theorem zero_f32 : Scalar.ofBits (F := Ideal) .f32 0x00000000#32 = (0 : EReal) := Ideal.ofBits_zero_f32
theorem one_f32 : Scalar.ofBits (F := Ideal) .f32 0x3F800000#32 = (1 : EReal) := IdealRules.sign_bit.ideal_onePat .f32

/-! ## The four products, each a plain one -/

theorem mm_x_w1 (x : FVec Ideal S2048x33 .bf16) (w : FVec Ideal S33x512 .bf16) (r : Fin 2048) (j : Fin 512) :
    matmul dot_S2048x33_S33x512_S2048x512_1_0_0_1_n_n none x w (constant S2048x512 .f32 0x00000000#32) (ix2 r j)
      = ∑ k : Fin 33, x (ix2 r k) * w (ix2 k j) :=
  PlainMatmul.matmul_zero_apply 2048 33 512 x w r j

theorem mm_h_w2 (x : FVec Ideal S2048x512 .bf16) (w : FVec Ideal S512x32 .bf16) (r : Fin 2048) (n : Fin 32) :
    matmul dot_S2048x512_S512x32_S2048x32_1_0_0_1_n_n none x w (constant S2048x32 .f32 0x00000000#32) (ix2 r n)
      = ∑ j : Fin 512, x (ix2 r j) * w (ix2 j n) :=
  PlainMatmul.matmul_zero_apply 2048 512 32 x w r n

theorem mm_u_w3 (x : FVec Ideal S1024x65 .bf16) (w : FVec Ideal S65x512 .bf16) (p : Fin 1024) (j : Fin 512) :
    matmul dot_S1024x65_S65x512_S1024x512_1_0_0_1_n_n none x w (constant S1024x512 .f32 0x00000000#32) (ix2 p j)
      = ∑ k : Fin 65, x (ix2 p k) * w (ix2 k j) :=
  PlainMatmul.matmul_zero_apply 1024 65 512 x w p j

theorem mm_h_w4 (x : FVec Ideal S1024x512 .bf16) (w : FVec Ideal S512x128 .bf16) (p : Fin 1024) (q : Fin 128) :
    matmul dot_S1024x512_S512x128_S1024x128_1_0_0_1_n_n none x w (constant S1024x128 .f32 0x00000000#32) (ix2 p q)
      = ∑ j : Fin 512, x (ix2 p j) * w (ix2 j q) :=
  PlainMatmul.matmul_zero_apply 1024 512 128 x w p q

/-! ## A run of hidden units -/

/-- `∑ j, max (∑ k, x (r, k) * w (k, j)) 0 * w2 (j, n)`: the hidden units `j` of one run, through ReLU, into the next
    layer's output `n`. -/
def hidden {R K J N : Nat} (x : (⟨2, ![R, K]⟩ : Shape).Idx → EReal) (w : (⟨2, ![K, J]⟩ : Shape).Idx → EReal)
    (w2 : (⟨2, ![J, N]⟩ : Shape).Idx → EReal) (r : Fin R) (n : Fin N) : EReal :=
  ∑ j : Fin J, max (∑ k : Fin K, x (ix2 r k) * w (ix2 k j)) 0 * w2 (ix2 j n)

/-! ## The first encoder's terms -/

theorem pay1_eq (v0 : Vec Ideal S2048x33 .bf16) : k0_pay1 (F := Ideal) v0 = v0 := shapeCast_self _ _

theorem pay3_apply (v0 : Vec Ideal S2048x33 .bf16) (v25 : Vec Ideal S33x512 .bf16) (v31 : Vec Ideal S512x32 .bf16)
    (r : Fin 2048) (n : Fin 32) :
    k0_pay3 (F := Ideal) v0 v25 v31 (ix2 r n) = hidden v0 v25 v31 r n := by
  unfold k0_pay3 hidden
  simp only [pay1_eq, shapeCast_self, mm_h_w2, maximumf_apply, truncf_apply, broadcast_apply, mm_x_w1, zero_bf16]

theorem pay2_apply (v0 : Vec Ideal S2048x33 .bf16) (v2 : Vec Ideal S1x32 .f32) (v4 : Vec Ideal S33x512 .bf16)
    (v10 : Vec Ideal S512x32 .bf16) (v15 : Vec Ideal S33x512 .bf16) (v21 : Vec Ideal S512x32 .bf16)
    (r : Fin 2048) (n : Fin 32) :
    k0_pay2 (F := Ideal) v0 v2 v4 v10 v15 v21 (ix2 r n)
      = v2 (ix2 (0 : Fin 1) n) + hidden v0 v4 v10 r n + hidden v0 v15 v21 r n := by
  unfold k0_pay2 hidden
  simp only [pay1_eq, shapeCast_self, addf_apply, broadcastTo_1b_ab_apply, mm_h_w2, maximumf_apply, truncf_apply,
    broadcast_apply, mm_x_w1, zero_bf16]

theorem pay4_apply (v1 : FVec Ideal S2048x33 .bf16) (v24 v33 : FVec Ideal S2048x32 .f32)
    (v35 : Vec Ideal S33x512 .bf16) (v41 : Vec Ideal S512x32 .bf16) (v45 : Vec Ideal S33x512 .bf16)
    (v51 : Vec Ideal S512x32 .bf16) (v55 : Vec Ideal S33x512 .bf16) (v61 : Vec Ideal S512x32 .bf16)
    (r : Fin 2048) (n : Fin 32) :
    k0_pay4 (F := Ideal) v1 v24 v33 v35 v41 v45 v51 v55 v61 (ix2 r n)
      = v24 (ix2 r n) + v33 (ix2 r n) + hidden v1 v35 v41 r n + hidden v1 v45 v51 r n + hidden v1 v55 v61 r n := by
  unfold k0_pay4 hidden
  simp only [shapeCast_self, addf_apply, mm_h_w2, maximumf_apply, truncf_apply, broadcast_apply, mm_x_w1, zero_bf16]

theorem pay5_apply (v1 : FVec Ideal S2048x33 .bf16) (v65 : Vec Ideal S33x512 .bf16) (r : Fin 2048) (j : Fin 512) :
    k0_pay5 (F := Ideal) v1 v65 (ix2 r j) = ∑ k : Fin 33, v1 (ix2 r k) * v65 (ix2 k j) := by
  unfold k0_pay5
  simp only [shapeCast_self, truncf_apply, mm_x_w1]

/-! ## The two encodings re-paired, with the ones column

The term's value before the slices, `max (v64 + (a run whose first product is handed in as a vector) + (the last run)) 0`
at row `r`, is cut into its upper and lower halves, which are set side by side with a column of ones. -/

/-- The stacked block's row `r` before it is cut. -/
def stacked (v1 : FVec Ideal S2048x33 .bf16) (v64 : FVec Ideal S2048x32 .f32) (v68 : FVec Ideal S2048x512 .bf16)
    (z : EReal) (v71 : Vec Ideal S512x32 .bf16) (v75 : Vec Ideal S33x512 .bf16) (v81 : Vec Ideal S512x32 .bf16)
    (r : Fin 2048) (n : Fin 32) : EReal :=
  max (v64 (ix2 r n) + ∑ j : Fin 512, max (v68 (ix2 r j)) z * v71 (ix2 j n) + hidden v1 v75 v81 r n) 0

theorem stacked_eq (v1 : FVec Ideal S2048x33 .bf16) (v64 : FVec Ideal S2048x32 .f32) (v68 : FVec Ideal S2048x512 .bf16)
    (z : Ideal .bf16) (v71 : FVec Ideal S512x32 .bf16) (v75 : FVec Ideal S33x512 .bf16) (v81 : FVec Ideal S512x32 .bf16)
    (r : Fin 2048) (n : Fin 32) :
    maximumf (addf (addf v64 (matmul dot_S2048x512_S512x32_S2048x32_1_0_0_1_n_n none
        (maximumf v68 (broadcast S2048x512 z)) (shapeCast S512x32 v71 shapeCasts_S512x32_S512x32)
        (constant S2048x32 .f32 0x00000000#32)))
      (matmul dot_S2048x512_S512x32_S2048x32_1_0_0_1_n_n none
        (maximumf (truncf .bf16 (matmul dot_S2048x33_S33x512_S2048x512_1_0_0_1_n_n none v1
          (shapeCast S33x512 v75 shapeCasts_S33x512_S33x512) (constant S2048x512 .f32 0x00000000#32)) bitsLt_bf16_f32)
          (broadcast S2048x512 (Scalar.ofBits .bf16 0x0000#16)))
        (shapeCast S512x32 v81 shapeCasts_S512x32_S512x32) (constant S2048x32 .f32 0x00000000#32)))
      (broadcast S2048x32 (Scalar.ofBits .f32 0x00000000#32)) (ix2 r n)
      = stacked v1 v64 v68 z v71 v75 v81 r n := by
  unfold stacked hidden
  simp only [shapeCast_self, addf_apply, mm_h_w2, maximumf_apply, truncf_apply, broadcast_apply, mm_x_w1, zero_bf16,
    zero_f32]

/-- Columns below 32 of the re-paired block: the stacked block's row `p`. -/
theorem pay6_left (v1 : FVec Ideal S2048x33 .bf16) (v64 : FVec Ideal S2048x32 .f32) (v68 : FVec Ideal S2048x512 .bf16)
    (z : Ideal .bf16) (v71 : Vec Ideal S512x32 .bf16) (v75 : Vec Ideal S33x512 .bf16) (v81 : Vec Ideal S512x32 .bf16)
    (p : Fin 1024) (k : Fin 65) (n : Fin 32) (hk : k.val = n.val) :
    k0_pay6 (F := Ideal) v1 v64 v68 z v71 v75 v81 (ix2 p k)
      = stacked v1 v64 v68 z v71 v75 v81 ⟨p.val, by have := p.isLt; omega⟩ n := by
  unfold k0_pay6
  refine (truncf_apply (ψ := .bf16) _ bitsLt_bf16_f32 (ix2 p k)).trans ?_
  refine (concatenate_apply_piece (1 : Fin 2) _ _ (ix2 p k) 0 ?hk S1024x32 ?x1 ?hx rfl 0 ?hpre (ix2 p n) ?hi
    ?ha).trans ?fin
  case hx => rfl
  case hk => exact Nat.succ_pos _
  case hpre => rfl
  case hi =>
    intro b hb
    match b with
    | ⟨0, _⟩ => rfl
    | ⟨1, _⟩ => exact absurd rfl hb
  case ha =>
    show 0 + n.val = k.val
    omega
  case fin =>
    refine (slice2_axis0_apply 0 _ _ p n ⟨p.val, by have := p.isLt; omega⟩ (by show p.val = 0 + p.val; omega)).trans ?_
    exact stacked_eq v1 v64 v68 z v71 v75 v81 _ n

/-- Columns 32 to 63 of the re-paired block: the stacked block's row `1024 + p`. -/
theorem pay6_mid (v1 : FVec Ideal S2048x33 .bf16) (v64 : FVec Ideal S2048x32 .f32) (v68 : FVec Ideal S2048x512 .bf16)
    (z : Ideal .bf16) (v71 : Vec Ideal S512x32 .bf16) (v75 : Vec Ideal S33x512 .bf16) (v81 : Vec Ideal S512x32 .bf16)
    (p : Fin 1024) (k : Fin 65) (n : Fin 32) (hk : k.val = 32 + n.val) :
    k0_pay6 (F := Ideal) v1 v64 v68 z v71 v75 v81 (ix2 p k)
      = stacked v1 v64 v68 z v71 v75 v81 ⟨1024 + p.val, by have := p.isLt; omega⟩ n := by
  unfold k0_pay6
  refine (truncf_apply (ψ := .bf16) _ bitsLt_bf16_f32 (ix2 p k)).trans ?_
  refine (concatenate_apply_piece (1 : Fin 2) _ _ (ix2 p k) 1 ?hk S1024x32 ?x1 ?hx rfl 32 ?hpre (ix2 p n) ?hi
    ?ha).trans ?fin
  case hx => rfl
  case hk => exact Nat.succ_lt_succ (Nat.succ_pos _)
  case hpre => rfl
  case hi =>
    intro b hb
    match b with
    | ⟨0, _⟩ => rfl
    | ⟨1, _⟩ => exact absurd rfl hb
  case ha =>
    show 32 + n.val = k.val
    omega
  case fin =>
    refine (slice2_axis0_apply 1024 _ _ p n ⟨1024 + p.val, by have := p.isLt; omega⟩ rfl).trans ?_
    exact stacked_eq v1 v64 v68 z v71 v75 v81 _ n

/-- Column 64 of the re-paired block: one. -/
theorem pay6_last (v1 : FVec Ideal S2048x33 .bf16) (v64 : FVec Ideal S2048x32 .f32) (v68 : FVec Ideal S2048x512 .bf16)
    (z : Ideal .bf16) (v71 : Vec Ideal S512x32 .bf16) (v75 : Vec Ideal S33x512 .bf16) (v81 : Vec Ideal S512x32 .bf16)
    (p : Fin 1024) (k : Fin 65) (hk : k.val = 64) :
    k0_pay6 (F := Ideal) v1 v64 v68 z v71 v75 v81 (ix2 p k) = 1 := by
  unfold k0_pay6
  refine (truncf_apply (ψ := .bf16) _ bitsLt_bf16_f32 (ix2 p k)).trans ?_
  refine (concatenate_apply_piece (1 : Fin 2) _ _ (ix2 p k) 2 ?hk S1024x1 ?x1 ?hx rfl 64 ?hpre (ix2 p (0 : Fin 1)) ?hi
    ?ha).trans ?fin
  case hx => rfl
  case hk => exact Nat.succ_lt_succ (Nat.succ_lt_succ (Nat.succ_pos _))
  case hpre => rfl
  case hi =>
    intro b hb
    match b with
    | ⟨0, _⟩ => rfl
    | ⟨1, _⟩ => exact absurd rfl hb
  case ha =>
    show 64 + 0 = k.val
    omega
  case fin => exact one_f32

/-! ## The second stage's terms -/

theorem pay7_apply (v1 : FVec Ideal S2048x33 .bf16) (v64 : FVec Ideal S2048x32 .f32) (v68 : FVec Ideal S2048x512 .bf16)
    (z : Ideal .bf16) (v71 : Vec Ideal S512x32 .bf16) (v75 : Vec Ideal S33x512 .bf16) (v81 : Vec Ideal S512x32 .bf16)
    (v92 : Vec Ideal S1x128 .f32) (v94 : Vec Ideal S65x512 .bf16) (v100 : Vec Ideal S512x128 .bf16)
    (p : Fin 1024) (q : Fin 128) :
    k0_pay7 (F := Ideal) v1 v64 v68 z v71 v75 v81 v92 v94 v100 (ix2 p q)
      = v92 (ix2 (0 : Fin 1) q) + hidden (k0_pay6 (F := Ideal) v1 v64 v68 z v71 v75 v81) v94 v100 p q := by
  unfold k0_pay7 hidden
  simp only [shapeCast_self, addf_apply, broadcastTo_1b_ab_apply, mm_h_w4, maximumf_apply, truncf_apply,
    broadcast_apply, mm_u_w3, zero_bf16]

theorem pay8_apply (v91 : FVec Ideal S1024x65 .bf16) (v104 : FVec Ideal S1024x128 .f32)
    (v105 : Vec Ideal S65x512 .bf16) (v111 : Vec Ideal S512x128 .bf16) (v115 : Vec Ideal S65x512 .bf16)
    (v121 : Vec Ideal S512x128 .bf16) (v125 : Vec Ideal S65x512 .bf16) (v131 : Vec Ideal S512x128 .bf16)
    (p : Fin 1024) (q : Fin 128) :
    k0_pay8 (F := Ideal) v91 v104 v105 v111 v115 v121 v125 v131 (ix2 p q)
      = v104 (ix2 p q) + hidden v91 v105 v111 p q + hidden v91 v115 v121 p q + hidden v91 v125 v131 p q := by
  unfold k0_pay8 hidden
  simp only [shapeCast_self, addf_apply, mm_h_w4, maximumf_apply, truncf_apply, broadcast_apply, mm_u_w3, zero_bf16]

theorem pay9_apply (v91 : FVec Ideal S1024x65 .bf16) (v135 : Vec Ideal S65x512 .bf16) (p : Fin 1024) (j : Fin 512) :
    k0_pay9 (F := Ideal) v91 v135 (ix2 p j) = max (∑ k : Fin 65, v91 (ix2 p k) * v135 (ix2 k j)) 0 := by
  unfold k0_pay9
  simp only [shapeCast_self, maximumf_apply, truncf_apply, broadcast_apply, mm_u_w3, zero_bf16]

theorem pay10_apply (v91 : FVec Ideal S1024x65 .bf16) (v134 : FVec Ideal S1024x128 .f32)
    (v140 : FVec Ideal S1024x512 .bf16) (v141 : Vec Ideal S512x128 .bf16) (v145 : Vec Ideal S65x512 .bf16)
    (v151 : Vec Ideal S512x128 .bf16) (v155 : Vec Ideal S65x512 .bf16) (v161 : Vec Ideal S512x128 .bf16)
    (v165 : Vec Ideal S65x512 .bf16) (v171 : Vec Ideal S512x128 .bf16) (p : Fin 1024) (q : Fin 128) :
    k0_pay10 (F := Ideal) v91 v134 v140 v141 v145 v151 v155 v161 v165 v171 (ix2 p q)
      = v134 (ix2 p q) + ∑ j : Fin 512, v140 (ix2 p j) * v141 (ix2 j q) + hidden v91 v145 v151 p q
        + hidden v91 v155 v161 p q + hidden v91 v165 v171 p q := by
  unfold k0_pay10 hidden
  simp only [shapeCast_self, addf_apply, mm_h_w4, maximumf_apply, truncf_apply, broadcast_apply, mm_u_w3, zero_bf16]

/-! ## A run of columns, or of rows, of a weight block -/

theorem ld_cols33 (x : Vec Ideal S33x4096 .bf16) (o : Nat)
    (inb : ∀ a, (![0, o] : Fin 2 → Nat) a + S33x512.size a ≤ S33x4096.size a) (k : Fin 33) (j : Fin 512) :
    View.ld x (Rect.unit (s := S33x4096) ![0, o] S33x512.size inb) (ix2 k j)
      = x (ix2 k ⟨o + j.val, by have h1 : o + 512 ≤ 4096 := inb 1; have := j.isLt; omega⟩) := by
  show x _ = x _
  refine congrArg x (funext fun a => Fin.ext ?_)
  match a with
  | ⟨0, _⟩ => show 0 + 1 * k.val = k.val; omega
  | ⟨1, _⟩ => show o + 1 * j.val = o + j.val; omega

theorem ld_rows32 (x : Vec Ideal S4096x32 .bf16) (o : Nat)
    (inb : ∀ a, (![o, 0] : Fin 2 → Nat) a + S512x32.size a ≤ S4096x32.size a) (j : Fin 512) (n : Fin 32) :
    View.ld x (Rect.unit (s := S4096x32) ![o, 0] S512x32.size inb) (ix2 j n)
      = x (ix2 ⟨o + j.val, by have h1 : o + 512 ≤ 4096 := inb 0; have := j.isLt; omega⟩ n) := by
  show x _ = x _
  refine congrArg x (funext fun a => Fin.ext ?_)
  match a with
  | ⟨0, _⟩ => show o + 1 * j.val = o + j.val; omega
  | ⟨1, _⟩ => show 0 + 1 * n.val = n.val; omega

theorem ld_cols65 (x : Vec Ideal S65x4096 .bf16) (o : Nat)
    (inb : ∀ a, (![0, o] : Fin 2 → Nat) a + S65x512.size a ≤ S65x4096.size a) (k : Fin 65) (j : Fin 512) :
    View.ld x (Rect.unit (s := S65x4096) ![0, o] S65x512.size inb) (ix2 k j)
      = x (ix2 k ⟨o + j.val, by have h1 : o + 512 ≤ 4096 := inb 1; have := j.isLt; omega⟩) := by
  show x _ = x _
  refine congrArg x (funext fun a => Fin.ext ?_)
  match a with
  | ⟨0, _⟩ => show 0 + 1 * k.val = k.val; omega
  | ⟨1, _⟩ => show o + 1 * j.val = o + j.val; omega

theorem ld_rows128 (x : Vec Ideal S4096x128 .bf16) (o : Nat)
    (inb : ∀ a, (![o, 0] : Fin 2 → Nat) a + S512x128.size a ≤ S4096x128.size a) (j : Fin 512) (q : Fin 128) :
    View.ld x (Rect.unit (s := S4096x128) ![o, 0] S512x128.size inb) (ix2 j q)
      = x (ix2 ⟨o + j.val, by have h1 : o + 512 ≤ 4096 := inb 0; have := j.isLt; omega⟩ q) := by
  show x _ = x _
  refine congrArg x (funext fun a => Fin.ext ?_)
  match a with
  | ⟨0, _⟩ => show o + 1 * j.val = o + j.val; omega
  | ⟨1, _⟩ => show 0 + 1 * q.val = q.val; omega

/-! ## Eight runs are one layer -/

theorem hz : (![0, 0] : Fin 2 → Nat) = fun _ => 0 := funext fun a => by fin_cases a <;> rfl

/-- A run of the first encoder layer, read off the two weight blocks from column / row `o` on. -/
theorem hidden_first (x0 : FVec Ideal S2048x33 .bf16) (x1 : Vec Ideal S33x4096 .bf16) (x2 : Vec Ideal S4096x32 .bf16)
    (o : Nat) (inb1 : ∀ a, (![0, o] : Fin 2 → Nat) a + S33x512.size a ≤ S33x4096.size a)
    (inb2 : ∀ a, (![o, 0] : Fin 2 → Nat) a + S512x32.size a ≤ S4096x32.size a) (ho : o + 512 ≤ 4096)
    (r : Fin 2048) (n : Fin 32) :
    hidden (R := 2048) (K := 33) (J := 512) (N := 32) x0
        (View.ld x1 (Rect.unit (s := S33x4096) ![0, o] S33x512.size inb1))
        (View.ld x2 (Rect.unit (s := S4096x32) ![o, 0] S512x32.size inb2)) r n
      = TwinMlp.run512 (fun j => max (∑ k : Fin 33, x0 (ix2 r k) * x1 (ix2 k j)) 0 * x2 (ix2 j n)) o ho := by
  unfold hidden TwinMlp.run512
  refine Finset.sum_congr rfl fun j _ => ?_
  exact congrArg₂ (· * ·) (congrArg (max · 0) (Finset.sum_congr rfl fun k _ =>
    congrArg (x0 (ix2 r k) * ·) (ld_cols33 x1 o inb1 k j))) (ld_rows32 x2 o inb2 j n)

/-- A run of the second stage, read off its two weight blocks from column / row `o` on. -/
theorem hidden_second (u : FVec Ideal S1024x65 .bf16) (x4 : Vec Ideal S65x4096 .bf16) (x5 : Vec Ideal S4096x128 .bf16)
    (o : Nat) (inb1 : ∀ a, (![0, o] : Fin 2 → Nat) a + S65x512.size a ≤ S65x4096.size a)
    (inb2 : ∀ a, (![o, 0] : Fin 2 → Nat) a + S512x128.size a ≤ S4096x128.size a) (ho : o + 512 ≤ 4096)
    (p : Fin 1024) (q : Fin 128) :
    hidden (R := 1024) (K := 65) (J := 512) (N := 128) u
        (View.ld x4 (Rect.unit (s := S65x4096) ![0, o] S65x512.size inb1))
        (View.ld x5 (Rect.unit (s := S4096x128) ![o, 0] S512x128.size inb2)) p q
      = TwinMlp.run512 (fun j => max (∑ k : Fin 65, u (ix2 p k) * x4 (ix2 k j)) 0 * x5 (ix2 j q)) o ho := by
  unfold hidden TwinMlp.run512
  refine Finset.sum_congr rfl fun j _ => ?_
  exact congrArg₂ (· * ·) (congrArg (max · 0) (Finset.sum_congr rfl fun k _ =>
    congrArg (u (ix2 p k) * ·) (ld_cols65 x4 o inb1 k j))) (ld_rows128 x5 o inb2 j q)

/-- The encoding of row `r` of the stacked input block: two ReLU layers, the first with the bias in the last row of
    its weights. -/
def encRow (x0 : Vec Ideal S2048x33 .bf16) (x1 : Vec Ideal S33x4096 .bf16) (x2 : Vec Ideal S4096x32 .bf16)
    (x3 : Vec Ideal S1x32 .f32) (r : Fin 2048) (n : Fin 32) : EReal :=
  max (∑ j : Fin 4096, max (∑ k : Fin 33, x0 (ix2 r k) * x1 (ix2 k j)) 0 * x2 (ix2 j n) + x3 (ix2 (0 : Fin 1) n)) 0

/-- The re-paired block the second stage multiplies, as the body computes it from the first four windows' blocks. -/
abbrev paired (x0 : Vec Ideal S2048x33 .bf16) (x1 : Vec Ideal S33x4096 .bf16) (x2 : Vec Ideal S4096x32 .bf16)
    (x3 : Vec Ideal S1x32 .f32) : FVec Ideal S1024x65 .bf16 :=
  k0_pay6 (F := Ideal) (k0_pay1 (View.ld x0 r0_0)) (k0_pay4 (k0_pay1 (View.ld x0 r0_0)) (k0_pay2 (View.ld x0 r0_0) (View.ld x3 r0_1) (View.ld x1 r0_2) (View.ld x2 r0_3) (View.ld x1 r0_4) (View.ld x2 r0_5)) (k0_pay3 (View.ld x0 r0_0) (View.ld x1 r0_6) (View.ld x2 r0_7)) (View.ld x1 r0_8) (View.ld x2 r0_9) (View.ld x1 r0_10) (View.ld x2 r0_11) (View.ld x1 r0_12) (View.ld x2 r0_13)) (k0_pay5 (F := Ideal) (k0_pay1 (View.ld x0 r0_0)) (View.ld x1 r0_14)) (Scalar.ofBits (F := Ideal) .bf16 0x0000#16) (View.ld x2 r0_15) (View.ld x1 r0_16) (View.ld x2 r0_17)

/-- The stacked block's row, with the eight runs gathered: the encoding of that row. -/
theorem stacked_blocks (x0 : Vec Ideal S2048x33 .bf16) (x1 : Vec Ideal S33x4096 .bf16) (x2 : Vec Ideal S4096x32 .bf16)
    (x3 : Vec Ideal S1x32 .f32) (r : Fin 2048) (n : Fin 32) :
    stacked (k0_pay1 (F := Ideal) (View.ld x0 r0_0)) (k0_pay4 (F := Ideal) (k0_pay1 (View.ld x0 r0_0)) (k0_pay2 (View.ld x0 r0_0) (View.ld x3 r0_1) (View.ld x1 r0_2) (View.ld x2 r0_3) (View.ld x1 r0_4) (View.ld x2 r0_5)) (k0_pay3 (View.ld x0 r0_0) (View.ld x1 r0_6) (View.ld x2 r0_7)) (View.ld x1 r0_8) (View.ld x2 r0_9) (View.ld x1 r0_10) (View.ld x2 r0_11) (View.ld x1 r0_12) (View.ld x2 r0_13)) (k0_pay5 (F := Ideal) (k0_pay1 (View.ld x0 r0_0)) (View.ld x1 r0_14)) (Scalar.ofBits (F := Ideal) .bf16 0x0000#16) (View.ld x2 r0_15) (View.ld x1 r0_16) (View.ld x2 r0_17) r n
      = encRow x0 x1 x2 x3 r n := by
  unfold stacked encRow
  simp only [pay4_apply, pay2_apply, pay3_apply, pay5_apply, pay1_eq, View.ld_unit_zero (S := S2048x33) hz,
    View.ld_unit_zero (S := S1x32) hz, zero_bf16]
  have h7 : (∑ j : Fin 512, max (∑ k : Fin 33, x0 (ix2 r k) * View.ld x1 r0_14 (ix2 k j)) 0 * View.ld x2 r0_15 (ix2 j n))
      = hidden (R := 2048) (K := 33) (J := 512) (N := 32) x0 (View.ld x1 r0_14) (View.ld x2 r0_15) r n := rfl
  rw [h7, hidden_first x0 x1 x2 0 _ _ (by omega), hidden_first x0 x1 x2 512 _ _ (by omega),
    hidden_first x0 x1 x2 1024 _ _ (by omega), hidden_first x0 x1 x2 1536 _ _ (by omega),
    hidden_first x0 x1 x2 2048 _ _ (by omega), hidden_first x0 x1 x2 2560 _ _ (by omega),
    hidden_first x0 x1 x2 3072 _ _ (by omega), hidden_first x0 x1 x2 3584 _ _ (by omega), TwinMlp.sum_eight_runs]

/-- The second stage over any re-paired block `u`: its eight runs gathered onto the bias row. -/
theorem second_stage (u : FVec Ideal S1024x65 .bf16) (x4 : Vec Ideal S65x4096 .bf16) (x5 : Vec Ideal S4096x128 .bf16)
    (x6 : Vec Ideal S1x128 .f32) (v7 : FVec Ideal S1024x128 .f32)
    (hv7 : ∀ (p : Fin 1024) (q : Fin 128), v7 (ix2 p q)
      = x6 (ix2 (0 : Fin 1) q) + hidden (R := 1024) (K := 65) (J := 512) (N := 128) u (View.ld x4 r0_19) (View.ld x5 r0_20) p q)
    (p : Fin 1024) (q : Fin 128) :
    k0_pay10 (F := Ideal) u (k0_pay8 u v7 (View.ld x4 r0_21) (View.ld x5 r0_22) (View.ld x4 r0_23) (View.ld x5 r0_24) (View.ld x4 r0_25) (View.ld x5 r0_26)) (k0_pay9 u (View.ld x4 r0_27)) (View.ld x5 r0_28) (View.ld x4 r0_29) (View.ld x5 r0_30) (View.ld x4 r0_31) (View.ld x5 r0_32) (View.ld x4 r0_33) (View.ld x5 r0_34) (ix2 p q)
      = ∑ j : Fin 4096, max (∑ k : Fin 65, u (ix2 p k) * x4 (ix2 k j)) 0 * x5 (ix2 j q) + x6 (ix2 (0 : Fin 1) q) := by
  simp only [pay10_apply, pay9_apply, pay8_apply, hv7]
  have h5 : (∑ j : Fin 512, max (∑ k : Fin 65, u (ix2 p k) * View.ld x4 r0_27 (ix2 k j)) 0 * View.ld x5 r0_28 (ix2 j q))
      = hidden (R := 1024) (K := 65) (J := 512) (N := 128) u (View.ld x4 r0_27) (View.ld x5 r0_28) p q := rfl
  rw [h5, hidden_second u x4 x5 0 _ _ (by omega), hidden_second u x4 x5 512 _ _ (by omega),
    hidden_second u x4 x5 1024 _ _ (by omega), hidden_second u x4 x5 1536 _ _ (by omega),
    hidden_second u x4 x5 2048 _ _ (by omega), hidden_second u x4 x5 2560 _ _ (by omega),
    hidden_second u x4 x5 3072 _ _ (by omega), hidden_second u x4 x5 3584 _ _ (by omega), TwinMlp.sum_eight_runs]

/-- What the body leaves in the output block, at `(p, q)`: the last two layers over the re-paired block. -/
theorem out_apply (x0 : Vec Ideal S2048x33 .bf16) (x1 : Vec Ideal S33x4096 .bf16) (x2 : Vec Ideal S4096x32 .bf16)
    (x3 : Vec Ideal S1x32 .f32) (x4 : Vec Ideal S65x4096 .bf16) (x5 : Vec Ideal S4096x128 .bf16)
    (x6 : Vec Ideal S1x128 .f32) (p : Fin 1024) (q : Fin 128) :
    out0_7 (F := Ideal) x0 x1 x2 x3 x4 x5 x6 (ix2 p q)
      = ∑ j : Fin 4096, max (∑ k : Fin 65, paired x0 x1 x2 x3 (ix2 p k) * x4 (ix2 k j)) 0 * x5 (ix2 j q)
        + x6 (ix2 (0 : Fin 1) q) := by
  unfold out0_7
  refine (congrFun (View.canon_unit_zero hz _ _) (ix2 p q)).trans ?_
  exact second_stage _ x4 x5 x6 _ (fun p q => by rw [pay7_apply, View.ld_unit_zero (S := S1x128) hz]) p q

end Cert.KernelIdeal.Block

end
-- ==== Proof.HostArrays.lean ====
/-
  The arrays the region finds, read at an index.

  Before the region the program lays its ten arguments out as seven arrays: each input with a column of ones appended, the
  two inputs' row blocks of 1024 interleaved (block `t` of the first, then block `t` of the second), each of the two wide
  weight matrices with its bias appended as a last row, the two other weight matrices as they are, and the two other
  biases as one-row matrices. A change of float format is the identity on the extended reals. Each array is read here at
  an index in terms of the arguments.
-/
import proofs.«165105_g11802570129985_cont_fleet_79_6_alg».proof.Proof.Gen.KernelIdeal.Frame
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.HostArrays

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ)

/-! ## The arguments, by their literal types -/

abbrev a0 (c : Dev nD) : FVec Ideal S16384x32 .f32 := m ((c : Thread nD τ).loc main_arg0)
abbrev a1 (c : Dev nD) : FVec Ideal S16384x32 .f32 := m ((c : Thread nD τ).loc main_arg1)
abbrev a2 (c : Dev nD) : FVec Ideal S32x4096 .f32 := m ((c : Thread nD τ).loc main_arg2)
abbrev a3 (c : Dev nD) : FVec Ideal S4096 .f32 := m ((c : Thread nD τ).loc main_arg3)
abbrev a4 (c : Dev nD) : FVec Ideal S4096x32 .f32 := m ((c : Thread nD τ).loc main_arg4)
abbrev a5 (c : Dev nD) : FVec Ideal S32 .f32 := m ((c : Thread nD τ).loc main_arg5)
abbrev a6 (c : Dev nD) : FVec Ideal S64x4096 .f32 := m ((c : Thread nD τ).loc main_arg6)
abbrev a7 (c : Dev nD) : FVec Ideal S4096 .f32 := m ((c : Thread nD τ).loc main_arg7)
abbrev a8 (c : Dev nD) : FVec Ideal S4096x128 .f32 := m ((c : Thread nD τ).loc main_arg8)
abbrev a9 (c : Dev nD) : FVec Ideal S128 .f32 := m ((c : Thread nD τ).loc main_arg9)

/-! ## An input with a column of ones -/

/-- Row `i` of an input with a one appended: its 32 entries, then `1`. -/
def withOne (s : FVec Ideal S16384x32 .f32) (i : Fin 16384) (k : Fin 33) : EReal :=
  if h : k.val < 32 then s (ix2 i ⟨k.val, h⟩) else 1

theorem withOne_apply (s : FVec Ideal S16384x32 .f32) (i : Fin 16384) (k : Fin 33) :
    concatenate S16384x33 1 [⟨S16384x32, s⟩,
        ⟨S16384x1, broadcastInDim S16384x1 ![] bcast_S_S16384x1 (constant (F := Ideal) S_ .f32 0x3F800000#32)⟩]
      concatenates_S16384x32_S16384x1_S16384x33_d1 (ix2 i k) = withOne s i k := by
  unfold withOne
  by_cases h : k.val < 32
  · rw [dif_pos h]
    exact concatenate_pair_apply_left (s₁ := S16384x32) (s₂ := S16384x1) (1 : Fin 2) _ _ _ (ix2 i k) rfl (ix2 i ⟨k.val, h⟩) (fun b => by
      match b with
      | ⟨0, _⟩ => rfl
      | ⟨1, _⟩ => rfl)
  · rw [dif_neg h]
    refine (concatenate_pair_apply_right (s₁ := S16384x32) (s₂ := S16384x1) (1 : Fin 2) _ _ _ (ix2 i k) rfl rfl (ix2 i (0 : Fin 1)) (fun b hb => by
      match b with
      | ⟨0, _⟩ => rfl
      | ⟨1, _⟩ => exact absurd rfl hb) (by show 0 + 32 = k.val; have := k.isLt; omega)).trans ?_
    refine (broadcastInDim_apply _ bcast_S_S16384x1 _ (ix2 i (0 : Fin 1)) ix0 (fun a => a.elim0)).trans ?_
    exact IdealRules.sign_bit.ideal_onePat .f32

/-! ## The two inputs stacked block by block -/

/-- The stacked array as the term of the operations that made it. -/
theorem stacked_term (c : Dev nD) :
    (V m c main_v8 : S32768x33.Idx → EReal)
      = shapeCast S32768x33 (concatenate S16x2048x33 1
          [⟨S16x1024x33, shapeCast S16x1024x33 (truncf .bf16 (concatenate S16384x33 1 [⟨S16384x32, a0 m c⟩,
              ⟨S16384x1, broadcastInDim S16384x1 ![] bcast_S_S16384x1 (constant (F := Ideal) S_ .f32 0x3F800000#32)⟩]
              concatenates_S16384x32_S16384x1_S16384x33_d1) bitsLt_bf16_f32) shapeCasts_S16384x33_S16x1024x33⟩,
           ⟨S16x1024x33, shapeCast S16x1024x33 (truncf .bf16 (concatenate S16384x33 1 [⟨S16384x32, a1 m c⟩,
              ⟨S16384x1, broadcastInDim S16384x1 ![] bcast_S_S16384x1 (constant (F := Ideal) S_ .f32 0x3F800000#32)⟩]
              concatenates_S16384x32_S16384x1_S16384x33_d1) bitsLt_bf16_f32) shapeCasts_S16384x33_S16x1024x33⟩]
          concatenates_S16x1024x33_S16x1024x33_S16x2048x33_d1) shapeCasts_S16x2048x33_S32768x33 := by
  dsimp only [Gen.V, Gen.hostOps0]
  after_results <;> rfl

/-- Rows `2048 t + p`, `p < 1024`, of the stacked array: rows `1024 t + p` of the first input, with the one. -/
theorem stacked_upper (c : Dev nD) (t : Fin 16) (p : Fin 1024) (k : Fin 33) :
    (V m c main_v8 : S32768x33.Idx → EReal)
        (ix2 ⟨2048 * t.val + p.val, by have := t.isLt; have := p.isLt; omega⟩ k)
      = withOne (a0 m c) ⟨1024 * t.val + p.val, by have := t.isLt; have := p.isLt; omega⟩ k := by
  rw [stacked_term]
  refine (shapeCast_apply _ shapeCasts_S16x2048x33_S32768x33 _
    (ix3 t (⟨p.val, by have := p.isLt; omega⟩ : Fin 2048) k) ?_).trans ?_
  · rw [Shape.rowMajor_val_three, Shape.rowMajor_val_two]
    show (t.val * 2048 + p.val) * 33 + k.val = (2048 * t.val + p.val) * 33 + k.val
    omega
  refine (concatenate_pair_apply_left (s₁ := S16x1024x33) (s₂ := S16x1024x33) (1 : Fin 3) _ _ _
    (ix3 t (⟨p.val, by have := p.isLt; omega⟩ : Fin 2048) k) rfl (ix3 t p k) (fun b => by
      match b with
      | ⟨0, _⟩ => rfl
      | ⟨1, _⟩ => rfl
      | ⟨2, _⟩ => rfl)).trans ?_
  refine (shapeCast_apply _ shapeCasts_S16384x33_S16x1024x33 (ix3 t p k)
    (ix2 (⟨1024 * t.val + p.val, by have := t.isLt; have := p.isLt; omega⟩ : Fin 16384) k) ?_).trans ?_
  · rw [Shape.rowMajor_val_two, Shape.rowMajor_val_three]
    show (1024 * t.val + p.val) * 33 + k.val = (t.val * 1024 + p.val) * 33 + k.val
    omega
  exact withOne_apply (a0 m c) _ k

/-- Rows `2048 t + 1024 + p` of the stacked array: rows `1024 t + p` of the second input, with the one. -/
theorem stacked_lower (c : Dev nD) (t : Fin 16) (p : Fin 1024) (k : Fin 33) :
    (V m c main_v8 : S32768x33.Idx → EReal)
        (ix2 ⟨2048 * t.val + (1024 + p.val), by have := t.isLt; have := p.isLt; omega⟩ k)
      = withOne (a1 m c) ⟨1024 * t.val + p.val, by have := t.isLt; have := p.isLt; omega⟩ k := by
  rw [stacked_term]
  refine (shapeCast_apply _ shapeCasts_S16x2048x33_S32768x33 _
    (ix3 t (⟨1024 + p.val, by have := p.isLt; omega⟩ : Fin 2048) k) ?_).trans ?_
  · rw [Shape.rowMajor_val_three, Shape.rowMajor_val_two]
    show (t.val * 2048 + (1024 + p.val)) * 33 + k.val = (2048 * t.val + (1024 + p.val)) * 33 + k.val
    omega
  refine (concatenate_pair_apply_right (s₁ := S16x1024x33) (s₂ := S16x1024x33) (1 : Fin 3) _ _ _
    (ix3 t (⟨1024 + p.val, by have := p.isLt; omega⟩ : Fin 2048) k) rfl rfl (ix3 t p k) (fun b hb => by
      match b with
      | ⟨0, _⟩ => rfl
      | ⟨1, _⟩ => exact absurd rfl hb
      | ⟨2, _⟩ => rfl) (by show p.val + 1024 = 1024 + p.val; omega)).trans ?_
  refine (shapeCast_apply _ shapeCasts_S16384x33_S16x1024x33 (ix3 t p k)
    (ix2 (⟨1024 * t.val + p.val, by have := t.isLt; have := p.isLt; omega⟩ : Fin 16384) k) ?_).trans ?_
  · rw [Shape.rowMajor_val_two, Shape.rowMajor_val_three]
    show (1024 * t.val + p.val) * 33 + k.val = (t.val * 1024 + p.val) * 33 + k.val
    omega
  exact withOne_apply (a1 m c) _ k

/-! ## The wide weight matrices with their bias rows -/

theorem w1_term (c : Dev nD) :
    (V m c main_v11 : S33x4096.Idx → EReal)
      = truncf .bf16 (concatenate S33x4096 0 [⟨S32x4096, a2 m c⟩,
          ⟨S1x4096, broadcastInDim S1x4096 ![1] bcast_S4096_S1x4096_1 (a3 m c)⟩]
          concatenates_S32x4096_S1x4096_S33x4096_d0) bitsLt_bf16_f32 := by
  dsimp only [Gen.V, Gen.hostOps0]
  after_results <;> rfl

/-- Rows below 32 of the first layer's matrix are its weights; row 32 is its bias. -/
theorem w1_apply (c : Dev nD) (k : Fin 33) (j : Fin 4096) :
    (V m c main_v11 : S33x4096.Idx → EReal) (ix2 k j)
      = if h : k.val < 32 then a2 m c (ix2 ⟨k.val, h⟩ j) else a3 m c (ix1 j) := by
  rw [w1_term]
  refine (truncf_apply (ψ := .bf16) _ bitsLt_bf16_f32 (ix2 k j)).trans ?_
  by_cases h : k.val < 32
  · rw [dif_pos h]
    exact concatenate_pair_apply_left (s₁ := S32x4096) (s₂ := S1x4096) (0 : Fin 2) _ _ _ (ix2 k j) rfl
      (ix2 ⟨k.val, h⟩ j) (fun b => by
        match b with
        | ⟨0, _⟩ => rfl
        | ⟨1, _⟩ => rfl)
  · rw [dif_neg h]
    refine (concatenate_pair_apply_right (s₁ := S32x4096) (s₂ := S1x4096) (0 : Fin 2) _ _ _ (ix2 k j) rfl rfl
      (ix2 (0 : Fin 1) j) (fun b hb => by
        match b with
        | ⟨0, _⟩ => exact absurd rfl hb
        | ⟨1, _⟩ => rfl) (by show 0 + 32 = k.val; have := k.isLt; omega)).trans ?_
    exact broadcastInDim_apply _ bcast_S4096_S1x4096_1 _ (ix2 (0 : Fin 1) j) (ix1 j) (fun a => by
      match a with
      | ⟨0, _⟩ => show j.val = if (4096 : Nat) = 1 then 0 else j.val; rw [if_neg (by decide)])

theorem w3_term (c : Dev nD) :
    (V m c main_v14 : S65x4096.Idx → EReal)
      = truncf .bf16 (concatenate S65x4096 0 [⟨S64x4096, a6 m c⟩,
          ⟨S1x4096, broadcastInDim S1x4096 ![1] bcast_S4096_S1x4096_1 (a7 m c)⟩]
          concatenates_S64x4096_S1x4096_S65x4096_d0) bitsLt_bf16_f32 := by
  dsimp only [Gen.V, Gen.hostOps0]
  after_results <;> rfl

/-- Rows below 64 of the third layer's matrix are its weights; row 64 is its bias. -/
theorem w3_apply (c : Dev nD) (k : Fin 65) (j : Fin 4096) :
    (V m c main_v14 : S65x4096.Idx → EReal) (ix2 k j)
      = if h : k.val < 64 then a6 m c (ix2 ⟨k.val, h⟩ j) else a7 m c (ix1 j) := by
  rw [w3_term]
  refine (truncf_apply (ψ := .bf16) _ bitsLt_bf16_f32 (ix2 k j)).trans ?_
  by_cases h : k.val < 64
  · rw [dif_pos h]
    exact concatenate_pair_apply_left (s₁ := S64x4096) (s₂ := S1x4096) (0 : Fin 2) _ _ _ (ix2 k j) rfl
      (ix2 ⟨k.val, h⟩ j) (fun b => by
        match b with
        | ⟨0, _⟩ => rfl
        | ⟨1, _⟩ => rfl)
  · rw [dif_neg h]
    refine (concatenate_pair_apply_right (s₁ := S64x4096) (s₂ := S1x4096) (0 : Fin 2) _ _ _ (ix2 k j) rfl rfl
      (ix2 (0 : Fin 1) j) (fun b hb => by
        match b with
        | ⟨0, _⟩ => exact absurd rfl hb
        | ⟨1, _⟩ => rfl) (by show 0 + 64 = k.val; have := k.isLt; omega)).trans ?_
    exact broadcastInDim_apply _ bcast_S4096_S1x4096_1 _ (ix2 (0 : Fin 1) j) (ix1 j) (fun a => by
      match a with
      | ⟨0, _⟩ => show j.val = if (4096 : Nat) = 1 then 0 else j.val; rw [if_neg (by decide)])

/-! ## The other weights and biases -/

theorem w2_eq (c : Dev nD) : (V m c main_v15 : S4096x32.Idx → EReal) = a4 m c := by
  dsimp only [Gen.V, Gen.hostOps0]
  after_results <;> rfl

theorem w4_eq (c : Dev nD) : (V m c main_v17 : S4096x128.Idx → EReal) = a8 m c := by
  dsimp only [Gen.V, Gen.hostOps0]
  after_results <;> rfl

theorem b2_term (c : Dev nD) :
    (V m c main_v16 : S1x32.Idx → EReal) = shapeCast S1x32 (a5 m c) shapeCasts_S32_S1x32 := by
  dsimp only [Gen.V, Gen.hostOps0]
  after_results <;> rfl

theorem b2_apply (c : Dev nD) (n : Fin 32) :
    (V m c main_v16 : S1x32.Idx → EReal) (ix2 (0 : Fin 1) n) = a5 m c (ix1 n) := by
  rw [b2_term]
  exact shapeCast_a_1a_apply (a5 m c) shapeCasts_S32_S1x32 0 n

theorem b4_term (c : Dev nD) :
    (V m c main_v18 : S1x128.Idx → EReal) = shapeCast S1x128 (a9 m c) shapeCasts_S128_S1x128 := by
  dsimp only [Gen.V, Gen.hostOps0]
  after_results <;> rfl

theorem b4_apply (c : Dev nD) (q : Fin 128) :
    (V m c main_v18 : S1x128.Idx → EReal) (ix2 (0 : Fin 1) q) = a9 m c (ix1 q) := by
  rw [b4_term]
  exact shapeCast_a_1a_apply (a9 m c) shapeCasts_S128_S1x128 0 q

end Cert.KernelIdeal.HostArrays

end
-- ==== Proof.KernelValue.lean ====
/-
  The array the kernel leaves is the specification.

  Grid point `t` sees rows `2048 t … 2048 t + 2047` of the stacked input array — rows `1024 t + p` of the first input, then
  rows `1024 t + p` of the second, each with its one — and the six weight and bias arrays whole. The two halves of the
  stacked block are encoded by the same two layers; a sum of 33 products whose last left factor is one is a sum of 32
  products plus a bias (`sum_snoc_one`), so each half's encoding is the specification's `encode` of the input row. The
  halves set side by side with a one meet the third layer's weights with their bias row in the same way, and the last
  layer is read as it stands. So what point `t` writes back is rows `1024 t … 1024 t + 1023` of `G`; the sixteen blocks tile
  the output array.
-/
import proofs.«165105_g11802570129985_cont_fleet_79_6_alg».proof.Proof.Gen.KernelIdeal.Value
import proofs.«165105_g11802570129985_cont_fleet_79_6_alg».proof.Proof.BlockValue
import proofs.«165105_g11802570129985_cont_fleet_79_6_alg».proof.Proof.HostArrays
import proofs.«165105_g11802570129985_cont_fleet_79_6_alg».proof.Proof.TwinMlp

noncomputable section

namespace Cert.KernelIdeal.ArrayValue

open Cert.KernelIdeal Cert.KernelIdeal.Gen Cert.KernelIdeal.Block Cert.KernelIdeal.HostArrays Cert.TwinMlp
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The windows' blocks, by their literal types -/

abbrev B0 (c : Dev nD) (t : Fin cfg0.N) : Vec Ideal S2048x33 .bf16 := iblk m c 0 t
abbrev B1 (c : Dev nD) (t : Fin cfg0.N) : Vec Ideal S33x4096 .bf16 := iblk m c 1 t
abbrev B2 (c : Dev nD) (t : Fin cfg0.N) : Vec Ideal S4096x32 .bf16 := iblk m c 2 t
abbrev B3 (c : Dev nD) (t : Fin cfg0.N) : Vec Ideal S1x32 .f32 := iblk m c 3 t
abbrev B4 (c : Dev nD) (t : Fin cfg0.N) : Vec Ideal S65x4096 .bf16 := iblk m c 4 t
abbrev B5 (c : Dev nD) (t : Fin cfg0.N) : Vec Ideal S4096x128 .bf16 := iblk m c 5 t
abbrev B6 (c : Dev nD) (t : Fin cfg0.N) : Vec Ideal S1x128 .f32 := iblk m c 6 t

/-- The specification at the kernel's arguments on core `c`. -/
abbrev Gk (c : Dev nD) : S16384x128.Idx → EReal :=
  G (a0 m c) (a1 m c) (a2 m c) (a3 m c) (a4 m c) (a5 m c) (a6 m c) (a7 m c) (a8 m c) (a9 m c)

/-- The printed index maps over the sixteen points: the stacked input and the output move one block per point, every
    other window stays on its one block. -/
theorem idx_facts : ∀ t : Fin cfg0.N, t.val < 16
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-! ## Each block in terms of the arguments -/

theorem blk0 (c : Dev nD) (t : Fin cfg0.N) (r : Fin 2048) (k : Fin 33) :
    B0 m c t (ix2 r k) = (V m c main_v8 : S32768x33.Idx → EReal)
      (ix2 ⟨2048 * t.val + r.val, by have := (idx_facts t).1; have := r.isLt; omega⟩ k) := by
  obtain ⟨-, e0, e1, -⟩ := idx_facts t
  show (V m c main_v8 : S32768x33.Idx → EReal) (((cfg0.win 0).blk t).view.emb (ix2 r k)) = _
  refine congrArg _ (funext fun a => Fin.ext ?_)
  match a with
  | ⟨0, _⟩ => show win0_0.index t (0 : Fin 2) * 2048 + 1 * r.val = 2048 * t.val + r.val; omega
  | ⟨1, _⟩ => show win0_0.index t (1 : Fin 2) * 33 + 1 * k.val = k.val; omega

theorem blk0_upper (c : Dev nD) (t : Fin cfg0.N) (p : Fin 1024) (k : Fin 33) :
    B0 m c t (ix2 ⟨p.val, by have := p.isLt; omega⟩ k)
      = withOne (a0 m c) ⟨1024 * t.val + p.val, by have := (idx_facts t).1; have := p.isLt; omega⟩ k :=
  (blk0 m c t ⟨p.val, by have := p.isLt; omega⟩ k).trans (stacked_upper m c ⟨t.val, (idx_facts t).1⟩ p k)

theorem blk0_lower (c : Dev nD) (t : Fin cfg0.N) (p : Fin 1024) (k : Fin 33) :
    B0 m c t (ix2 ⟨1024 + p.val, by have := p.isLt; omega⟩ k)
      = withOne (a1 m c) ⟨1024 * t.val + p.val, by have := (idx_facts t).1; have := p.isLt; omega⟩ k :=
  (blk0 m c t ⟨1024 + p.val, by have := p.isLt; omega⟩ k).trans (stacked_lower m c ⟨t.val, (idx_facts t).1⟩ p k)

theorem blk1 (c : Dev nD) (t : Fin cfg0.N) (k : Fin 33) (j : Fin 4096) :
    B1 m c t (ix2 k j) = if h : k.val < 32 then a2 m c (ix2 ⟨k.val, h⟩ j) else a3 m c (ix1 j) := by
  obtain ⟨-, -, -, e0, e1, -⟩ := idx_facts t
  refine Eq.trans ?_ (w1_apply m c k j)
  show (V m c main_v11 : S33x4096.Idx → EReal) (((cfg0.win 1).blk t).view.emb (ix2 k j)) = _
  refine congrArg _ (funext fun a => Fin.ext ?_)
  match a with
  | ⟨0, _⟩ => show win0_1.index t (0 : Fin 2) * 33 + 1 * k.val = k.val; omega
  | ⟨1, _⟩ => show win0_1.index t (1 : Fin 2) * 4096 + 1 * j.val = j.val; omega

theorem blk2 (c : Dev nD) (t : Fin cfg0.N) (j : Fin 4096) (n : Fin 32) :
    B2 m c t (ix2 j n) = a4 m c (ix2 j n) := by
  obtain ⟨-, -, -, -, -, e0, e1, -⟩ := idx_facts t
  refine Eq.trans ?_ (congrFun (w2_eq m c) (ix2 j n))
  show (V m c main_v15 : S4096x32.Idx → EReal) (((cfg0.win 2).blk t).view.emb (ix2 j n)) = _
  refine congrArg _ (funext fun a => Fin.ext ?_)
  match a with
  | ⟨0, _⟩ => show win0_2.index t (0 : Fin 2) * 4096 + 1 * j.val = j.val; omega
  | ⟨1, _⟩ => show win0_2.index t (1 : Fin 2) * 32 + 1 * n.val = n.val; omega

theorem blk3 (c : Dev nD) (t : Fin cfg0.N) (n : Fin 32) :
    B3 m c t (ix2 (0 : Fin 1) n) = a5 m c (ix1 n) := by
  obtain ⟨-, -, -, -, -, -, -, e0, e1, -⟩ := idx_facts t
  refine Eq.trans ?_ (b2_apply m c n)
  show (V m c main_v16 : S1x32.Idx → EReal) (((cfg0.win 3).blk t).view.emb (ix2 (0 : Fin 1) n)) = _
  refine congrArg _ (funext fun a => Fin.ext ?_)
  match a with
  | ⟨0, _⟩ => show win0_3.index t (0 : Fin 2) * 1 + 1 * 0 = 0; omega
  | ⟨1, _⟩ => show win0_3.index t (1 : Fin 2) * 32 + 1 * n.val = n.val; omega

theorem blk4 (c : Dev nD) (t : Fin cfg0.N) (k : Fin 65) (j : Fin 4096) :
    B4 m c t (ix2 k j) = if h : k.val < 64 then a6 m c (ix2 ⟨k.val, h⟩ j) else a7 m c (ix1 j) := by
  obtain ⟨-, -, -, -, -, -, -, -, -, e0, e1, -⟩ := idx_facts t
  refine Eq.trans ?_ (w3_apply m c k j)
  show (V m c main_v14 : S65x4096.Idx → EReal) (((cfg0.win 4).blk t).view.emb (ix2 k j)) = _
  refine congrArg _ (funext fun a => Fin.ext ?_)
  match a with
  | ⟨0, _⟩ => show win0_4.index t (0 : Fin 2) * 65 + 1 * k.val = k.val; omega
  | ⟨1, _⟩ => show win0_4.index t (1 : Fin 2) * 4096 + 1 * j.val = j.val; omega

theorem blk5 (c : Dev nD) (t : Fin cfg0.N) (j : Fin 4096) (q : Fin 128) :
    B5 m c t (ix2 j q) = a8 m c (ix2 j q) := by
  obtain ⟨-, -, -, -, -, -, -, -, -, -, -, e0, e1, -⟩ := idx_facts t
  refine Eq.trans ?_ (congrFun (w4_eq m c) (ix2 j q))
  show (V m c main_v17 : S4096x128.Idx → EReal) (((cfg0.win 5).blk t).view.emb (ix2 j q)) = _
  refine congrArg _ (funext fun a => Fin.ext ?_)
  match a with
  | ⟨0, _⟩ => show win0_5.index t (0 : Fin 2) * 4096 + 1 * j.val = j.val; omega
  | ⟨1, _⟩ => show win0_5.index t (1 : Fin 2) * 128 + 1 * q.val = q.val; omega

theorem blk6 (c : Dev nD) (t : Fin cfg0.N) (q : Fin 128) :
    B6 m c t (ix2 (0 : Fin 1) q) = a9 m c (ix1 q) := by
  obtain ⟨-, -, -, -, -, -, -, -, -, -, -, -, -, e0, e1, -⟩ := idx_facts t
  refine Eq.trans ?_ (b4_apply m c q)
  show (V m c main_v18 : S1x128.Idx → EReal) (((cfg0.win 6).blk t).view.emb (ix2 (0 : Fin 1) q)) = _
  refine congrArg _ (funext fun a => Fin.ext ?_)
  match a with
  | ⟨0, _⟩ => show win0_6.index t (0 : Fin 2) * 1 + 1 * 0 = 0; omega
  | ⟨1, _⟩ => show win0_6.index t (1 : Fin 2) * 128 + 1 * q.val = q.val; omega

/-! ## The two halves of the stacked block are encodings of input rows -/

/-- A row of the stacked block that is an input row with a one (`hrow`) is encoded as the specification encodes that
    input row: the one meets the first layer's bias row. -/
theorem enc_row (c : Dev nD) (t : Fin cfg0.N) (r : Fin 2048) (s : FVec Ideal S16384x32 .f32) (i : Fin 16384)
    (hrow : ∀ k : Fin 33, B0 m c t (ix2 r k) = withOne s i k) (n : Fin 32) :
    encRow (B0 m c t) (B1 m c t) (B2 m c t) (B3 m c t) r n
      = encode (a2 m c) (a3 m c) (a4 m c) (a5 m c) (fun k => s (ix2 i k)) n := by
  unfold encRow encode dense
  refine congrArg (max · 0) (congrArg₂ (· + ·) (Finset.sum_congr rfl fun j _ => ?_) (blk3 m c t n))
  refine congrArg₂ (· * ·) (congrArg (max · 0) ?_) (blk2 m c t j n)
  exact sum_snoc_one (n := 32) (fun k => B0 m c t (ix2 r k)) (fun k => B1 m c t (ix2 k j))
    (fun k => s (ix2 i k)) (fun k => a2 m c (ix2 k j)) (a3 m c (ix1 j))
    (fun k => (hrow k.castSucc).trans ((dif_pos (show (Fin.castSucc k).val < 32 from k.isLt)).trans rfl))
    ((hrow (Fin.last 32)).trans (dif_neg (show ¬(Fin.last 32).val < 32 from Nat.lt_irrefl 32)))
    (fun k => (blk1 m c t k.castSucc j).trans ((dif_pos (show (Fin.castSucc k).val < 32 from k.isLt)).trans rfl))
    ((blk1 m c t (Fin.last 32) j).trans (dif_neg (show ¬(Fin.last 32).val < 32 from Nat.lt_irrefl 32)))

/-- The re-paired block's first 64 columns: the two input rows' encodings side by side. -/
theorem paired_cast (c : Dev nD) (t : Fin cfg0.N) (p : Fin 1024) (k : Fin 64) :
    paired (B0 m c t) (B1 m c t) (B2 m c t) (B3 m c t) (ix2 p k.castSucc)
      = beside
          (encode (a2 m c) (a3 m c) (a4 m c) (a5 m c) fun k' =>
            a0 m c (ix2 ⟨1024 * t.val + p.val, by have := (idx_facts t).1; have := p.isLt; omega⟩ k'))
          (encode (a2 m c) (a3 m c) (a4 m c) (a5 m c) fun k' =>
            a1 m c (ix2 ⟨1024 * t.val + p.val, by have := (idx_facts t).1; have := p.isLt; omega⟩ k')) k := by
  unfold beside
  by_cases h : k.val < 32
  · rw [dif_pos h]
    exact (pay6_left _ _ _ _ _ _ _ p k.castSucc ⟨k.val, h⟩ rfl).trans
      ((stacked_blocks (B0 m c t) (B1 m c t) (B2 m c t) (B3 m c t) ⟨p.val, by have := p.isLt; omega⟩ ⟨k.val, h⟩).trans
        (enc_row m c t ⟨p.val, by have := p.isLt; omega⟩ (a0 m c) _ (fun k' => blk0_upper m c t p k') ⟨k.val, h⟩))
  · rw [dif_neg h]
    exact (pay6_mid _ _ _ _ _ _ _ p k.castSucc ⟨k.val - 32, by have := k.isLt; omega⟩
        (by show k.val = 32 + (k.val - 32); omega)).trans
      ((stacked_blocks (B0 m c t) (B1 m c t) (B2 m c t) (B3 m c t) ⟨1024 + p.val, by have := p.isLt; omega⟩
          ⟨k.val - 32, by have := k.isLt; omega⟩).trans
        (enc_row m c t ⟨1024 + p.val, by have := p.isLt; omega⟩ (a1 m c) _ (fun k' => blk0_lower m c t p k')
          ⟨k.val - 32, by have := k.isLt; omega⟩))

/-- Its last column is one. -/
theorem paired_last (c : Dev nD) (t : Fin cfg0.N) (p : Fin 1024) :
    paired (B0 m c t) (B1 m c t) (B2 m c t) (B3 m c t) (ix2 p (Fin.last 64)) = 1 :=
  pay6_last _ _ _ _ _ _ _ p (Fin.last 64) rfl

/-- The third layer before its ReLU, at hidden unit `j`: the one meets the third layer's bias row. -/
theorem third (c : Dev nD) (t : Fin cfg0.N) (p : Fin 1024) (j : Fin 4096) :
    ∑ k : Fin 65, paired (B0 m c t) (B1 m c t) (B2 m c t) (B3 m c t) (ix2 p k) * B4 m c t (ix2 k j)
      = ∑ k : Fin 64, beside
          (encode (a2 m c) (a3 m c) (a4 m c) (a5 m c) fun k' =>
            a0 m c (ix2 ⟨1024 * t.val + p.val, by have := (idx_facts t).1; have := p.isLt; omega⟩ k'))
          (encode (a2 m c) (a3 m c) (a4 m c) (a5 m c) fun k' =>
            a1 m c (ix2 ⟨1024 * t.val + p.val, by have := (idx_facts t).1; have := p.isLt; omega⟩ k')) k
          * a6 m c (ix2 k j) + a7 m c (ix1 j) :=
  sum_snoc_one (n := 64) (fun k => paired (B0 m c t) (B1 m c t) (B2 m c t) (B3 m c t) (ix2 p k))
    (fun k => B4 m c t (ix2 k j)) _ (fun k => a6 m c (ix2 k j)) (a7 m c (ix1 j))
    (fun k => paired_cast m c t p k) (paired_last m c t p)
    (fun k => (blk4 m c t k.castSucc j).trans ((dif_pos (show (Fin.castSucc k).val < 64 from k.isLt)).trans rfl))
    ((blk4 m c t (Fin.last 64) j).trans (dif_neg (show ¬(Fin.last 64).val < 64 from Nat.lt_irrefl 64)))

/-! ## What a point writes back is its block of the specification -/

/-- The body's output block at `(p, q)` is the specification at batch row `1024 t + p`. -/
theorem block_eq (c : Dev nD) (t : Fin cfg0.N) (p : Fin 1024) (q : Fin 128) :
    out0_7 (F := Ideal) (B0 m c t) (B1 m c t) (B2 m c t) (B3 m c t) (B4 m c t) (B5 m c t) (B6 m c t) (ix2 p q)
      = outAt (a0 m c) (a1 m c) (a2 m c) (a3 m c) (a4 m c) (a5 m c) (a6 m c) (a7 m c) (a8 m c) (a9 m c)
          ⟨1024 * t.val + p.val, by have := (idx_facts t).1; have := p.isLt; omega⟩ q := by
  refine (out_apply (B0 m c t) (B1 m c t) (B2 m c t) (B3 m c t) (B4 m c t) (B5 m c t) (B6 m c t) p q).trans ?_
  unfold outAt
  refine congrArg₂ (· + ·) (Finset.sum_congr rfl fun j _ => ?_) (blk6 m c t q)
  exact congrArg₂ (· * ·) (congrArg (max · 0) (third m c t p j)) (blk5 m c t j q)

/-- What point `t` writes back is block `t` of the specification. -/
theorem flushed_eq (c : Dev nD) (t : Fin cfg0.N) :
    (dats m 0 c).flushed 7 t = ((cfg0.win 7).blk t).view.read (Elt Ideal) (Gk m c) := by
  rw [Cert.KernelIdeal.Value.flushed7]
  funext y
  obtain ⟨p, q, rfl⟩ : ∃ (p : Fin 1024) (q : Fin 128), y = ix2 p q := ⟨y 0, y 1, eq_ix2 y⟩
  obtain ⟨-, -, -, -, -, -, -, -, -, -, -, -, -, -, -, e0, e1⟩ := idx_facts t
  show out0_7 (F := Ideal) (B0 m c t) (B1 m c t) (B2 m c t) (B3 m c t) (B4 m c t) (B5 m c t) (B6 m c t) (ix2 p q)
    = Gk m c (((cfg0.win 7).blk t).view.emb (ix2 p q))
  have e : ((cfg0.win 7).blk t).view.emb (ix2 p q)
      = ix2 ⟨1024 * t.val + p.val, by have := (idx_facts t).1; have := p.isLt; omega⟩ q :=
    funext fun a => Fin.ext (by
      match a with
      | ⟨0, _⟩ => show win0_7.index t (0 : Fin 2) * 1024 + 1 * p.val = 1024 * t.val + p.val; omega
      | ⟨1, _⟩ => show win0_7.index t (1 : Fin 2) * 128 + 1 * q.val = q.val; omega)
  rw [e]
  exact block_eq m c t p q

/-! ## The sixteen blocks tile the output -/

theorem mem_blk (t : Fin cfg0.N) (i : S16384x128.Idx) :
    i ∈ ((cfg0.win 7).blk t).view.set ↔ ∀ a : Fin 2, win0_7.index t a * S1024x128.size a ≤ (i a).val
      ∧ (i a).val < win0_7.index t a * S1024x128.size a + S1024x128.size a := by
  show i ∈ ((View.whole main_v19).slice (win0_7.rect t)).set ↔ _
  rw [View.set_slice_whole, Rect.mem_set_unit]
  exact Iff.rfl

/-- Row `r` of the output lies in the block of point `r / 1024`. -/
theorem cover (i : S16384x128.Idx) :
    ∃ t : Fin cfg0.N, (cfg0.win 7).flush t = true ∧ i ∈ ((cfg0.win 7).blk t).view.set := by
  have hi0 : (i 0).val < 16384 := (i 0).isLt
  have hi1 : (i 1).val < 128 := (i 1).isLt
  have hN : (i 0).val / 1024 < cfg0.N := by
    show (i 0).val / 1024 < grid0.N
    rw [N_0]; omega
  obtain ⟨-, -, -, -, -, -, -, -, -, -, -, -, -, -, -, e0, e1⟩ := idx_facts ⟨(i 0).val / 1024, hN⟩
  refine ⟨⟨(i 0).val / 1024, hN⟩, flush0_7 _, ?_⟩
  rw [mem_blk]
  intro a
  match a with
  | ⟨0, _⟩ =>
    show win0_7.index ⟨(i 0).val / 1024, hN⟩ (0 : Fin 2) * 1024 ≤ (i 0).val
      ∧ (i 0).val < win0_7.index ⟨(i 0).val / 1024, hN⟩ (0 : Fin 2) * 1024 + 1024
    rw [e0]
    show (i 0).val / 1024 * 1024 ≤ (i 0).val ∧ (i 0).val < (i 0).val / 1024 * 1024 + 1024
    omega
  | ⟨1, _⟩ =>
    show win0_7.index ⟨(i 0).val / 1024, hN⟩ (1 : Fin 2) * 128 ≤ (i 1).val
      ∧ (i 1).val < win0_7.index ⟨(i 0).val / 1024, hN⟩ (1 : Fin 2) * 128 + 128
    rw [e1]
    omega

/-- The output array after the run is the specification. -/
theorem final (c : Dev nD) : (dats m 0 c).arrAt 7 cfg0.N = Gk m c :=
  (dats m 0 c).arrAt_eq_of_cover 7 (Gk m c) (fun t _ => flushed_eq m c t) cover

/-! ## The run -/

/-- Every weakly fair execution of the idealized kernel ends with the result array at the specification of the
    arguments, the arguments unchanged. -/
theorem run : θ_run defs (onTc (τ := τ) (main (F := Ideal))) ⟨m, fun _ => 0, ρ⟩ fun r => ∀ c : Dev nD,
      r.2.mem ((c : Thread nD τ).loc main_v19) = Gk m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩)
    (Cert.KernelIdeal.Value.run_blocks m ρ)

end Cert.KernelIdeal.ArrayValue

end
-- ==== Proof.ReferenceValue.lean ====
/-
  The reference, read index by index, is the specification.

  The reference applies the four layers to the whole batch with four matrix products. Reading its operations one at a
  time at an index `(r, j)` gives, stage by stage, the first hidden layer of each input row, its encoding, the two
  encodings side by side, the third hidden layer, and the output: `G`.
-/
import proofs.«165105_g11802570129985_cont_fleet_79_6_alg».proof.Proof.Gen.ReferenceIdeal.Read
import proofs.«165105_g11802570129985_cont_fleet_79_6_alg».proof.Proof.TwinMlp
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Read Cert.TwinMlp Idealize.ShloMosaic Idealize.ShloMosaic.ValueIdx

variable (x0 x1 : FVec Ideal S16384x32 .f32) (x2 : FVec Ideal S32x4096 .f32) (x3 : FVec Ideal S4096 .f32)
  (x4 : FVec Ideal S4096x32 .f32) (x5 : FVec Ideal S32 .f32) (x6 : FVec Ideal S64x4096 .f32)
  (x7 : FVec Ideal S4096 .f32) (x8 : FVec Ideal S4096x128 .f32) (x9 : FVec Ideal S128 .f32)

/-- The first hidden layer on a row of the first input. -/
theorem hidden_first (r : Fin 16384) (j : Fin 4096) :
    val_main_v4 (F := Ideal) x0 x2 x3 (ix2 r j) = max (dense x2 x3 (fun k => x0 (ix2 r k)) j) 0 := by
  rw [val_main_v4_apply, val_main_v3_apply, val_main_v0_apply, val_main_v2_apply, val_main_v1_apply,
    val_main_call0_v0_apply, val_main_call0_cst_apply]
  have hl : ∀ k : Fin 32, lidx_main_v0 (ix2 r j) k = ix2 r k := fun k => funext fun a => by
    match a with
    | ⟨0, _⟩ => rfl
    | ⟨1, _⟩ => rfl
  have hr : ∀ k : Fin 32, ridx_main_v0 (ix2 r j) k = ix2 k j := fun k => funext fun a => by
    match a with
    | ⟨0, _⟩ => rfl
    | ⟨1, _⟩ => rfl
  have hb : idx_main_v1 (idx_main_v2 (ix2 r j)) = ix1 j := funext fun a => by
    match a with
    | ⟨0, _⟩ => rfl
  simp only [hl, hr, hb, Ideal.maximumf_def, Ideal.addf_def, Ideal.ofBits_def, Ideal.ofBits_zero_f32]
  rfl

/-- The first hidden layer on a row of the second input. -/
theorem hidden_first' (r : Fin 16384) (j : Fin 4096) :
    val_main_v14 (F := Ideal) x1 x2 x3 (ix2 r j) = max (dense x2 x3 (fun k => x1 (ix2 r k)) j) 0 := by
  rw [val_main_v14_apply, val_main_v13_apply, val_main_v10_apply, val_main_v12_apply, val_main_v11_apply,
    val_main_call2_v0_apply, val_main_call2_cst_apply]
  have hl : ∀ k : Fin 32, lidx_main_v10 (ix2 r j) k = ix2 r k := fun k => funext fun a => by
    match a with
    | ⟨0, _⟩ => rfl
    | ⟨1, _⟩ => rfl
  have hr : ∀ k : Fin 32, ridx_main_v10 (ix2 r j) k = ix2 k j := fun k => funext fun a => by
    match a with
    | ⟨0, _⟩ => rfl
    | ⟨1, _⟩ => rfl
  have hb : idx_main_v11 (idx_main_v12 (ix2 r j)) = ix1 j := funext fun a => by
    match a with
    | ⟨0, _⟩ => rfl
  simp only [hl, hr, hb, Ideal.maximumf_def, Ideal.addf_def, Ideal.ofBits_def, Ideal.ofBits_zero_f32]
  rfl

/-- The encoding of a row of the first input. -/
theorem encode_first (r : Fin 16384) (n : Fin 32) :
    val_main_v9 (F := Ideal) x0 x2 x3 x4 x5 (ix2 r n) = encode x2 x3 x4 x5 (fun k => x0 (ix2 r k)) n := by
  rw [val_main_v9_apply, val_main_v8_apply, val_main_v5_apply, val_main_v7_apply, val_main_v6_apply,
    val_main_call1_v0_apply, val_main_call1_cst_apply]
  have hl : ∀ k : Fin 4096, lidx_main_v5 (ix2 r n) k = ix2 r k := fun k => funext fun a => by
    match a with
    | ⟨0, _⟩ => rfl
    | ⟨1, _⟩ => rfl
  have hr : ∀ k : Fin 4096, ridx_main_v5 (ix2 r n) k = ix2 k n := fun k => funext fun a => by
    match a with
    | ⟨0, _⟩ => rfl
    | ⟨1, _⟩ => rfl
  have hb : idx_main_v6 (idx_main_v7 (ix2 r n)) = ix1 n := funext fun a => by
    match a with
    | ⟨0, _⟩ => rfl
  simp only [hl, hr, hb, hidden_first, Ideal.maximumf_def, Ideal.addf_def, Ideal.ofBits_def, Ideal.ofBits_zero_f32]
  rfl

/-- The encoding of a row of the second input. -/
theorem encode_second (r : Fin 16384) (n : Fin 32) :
    val_main_v19 (F := Ideal) x1 x2 x3 x4 x5 (ix2 r n) = encode x2 x3 x4 x5 (fun k => x1 (ix2 r k)) n := by
  rw [val_main_v19_apply, val_main_v18_apply, val_main_v15_apply, val_main_v17_apply, val_main_v16_apply,
    val_main_call3_v0_apply, val_main_call3_cst_apply]
  have hl : ∀ k : Fin 4096, lidx_main_v15 (ix2 r n) k = ix2 r k := fun k => funext fun a => by
    match a with
    | ⟨0, _⟩ => rfl
    | ⟨1, _⟩ => rfl
  have hr : ∀ k : Fin 4096, ridx_main_v15 (ix2 r n) k = ix2 k n := fun k => funext fun a => by
    match a with
    | ⟨0, _⟩ => rfl
    | ⟨1, _⟩ => rfl
  have hb : idx_main_v16 (idx_main_v17 (ix2 r n)) = ix1 n := funext fun a => by
    match a with
    | ⟨0, _⟩ => rfl
  simp only [hl, hr, hb, hidden_first', Ideal.maximumf_def, Ideal.addf_def, Ideal.ofBits_def, Ideal.ofBits_zero_f32]
  rfl

/-- The two encodings of a batch row, side by side. -/
theorem side_by_side (r : Fin 16384) (k : Fin 64) :
    val_main_v20 (F := Ideal) x0 x1 x2 x3 x4 x5 (ix2 r k)
      = beside (encode x2 x3 x4 x5 fun k => x0 (ix2 r k)) (encode x2 x3 x4 x5 fun k => x1 (ix2 r k)) k := by
  unfold val_main_v20 beside
  by_cases h : k.val < 32
  · rw [dif_pos h]
    refine (concatenate_pair_apply_left (s₁ := S16384x32) (s₂ := S16384x32) (1 : Fin 2) _ _ _ (ix2 r k) rfl
      (ix2 r ⟨k.val, h⟩) (fun b => by
        match b with
        | ⟨0, _⟩ => rfl
        | ⟨1, _⟩ => rfl)).trans ?_
    exact encode_first x0 x2 x3 x4 x5 r ⟨k.val, h⟩
  · rw [dif_neg h]
    refine (concatenate_pair_apply_right (s₁ := S16384x32) (s₂ := S16384x32) (1 : Fin 2) _ _ _ (ix2 r k) rfl rfl
      (ix2 r ⟨k.val - 32, by have := k.isLt; omega⟩) (fun b hb => by
        match b with
        | ⟨0, _⟩ => rfl
        | ⟨1, _⟩ => exact absurd rfl hb) (by show k.val - 32 + 32 = k.val; omega)).trans ?_
    exact encode_second x1 x2 x3 x4 x5 r ⟨k.val - 32, by have := k.isLt; omega⟩

/-- The third hidden layer on a batch row. -/
theorem hidden_third (r : Fin 16384) (j : Fin 4096) :
    val_main_v25 (F := Ideal) x0 x1 x2 x3 x4 x5 x6 x7 (ix2 r j)
      = max (dense x6 x7
          (beside (encode x2 x3 x4 x5 fun k => x0 (ix2 r k)) (encode x2 x3 x4 x5 fun k => x1 (ix2 r k))) j) 0 := by
  rw [val_main_v25_apply, val_main_v24_apply, val_main_v21_apply, val_main_v23_apply, val_main_v22_apply,
    val_main_call4_v0_apply, val_main_call4_cst_apply]
  have hl : ∀ k : Fin 64, lidx_main_v21 (ix2 r j) k = ix2 r k := fun k => funext fun a => by
    match a with
    | ⟨0, _⟩ => rfl
    | ⟨1, _⟩ => rfl
  have hr : ∀ k : Fin 64, ridx_main_v21 (ix2 r j) k = ix2 k j := fun k => funext fun a => by
    match a with
    | ⟨0, _⟩ => rfl
    | ⟨1, _⟩ => rfl
  have hb : idx_main_v22 (idx_main_v23 (ix2 r j)) = ix1 j := funext fun a => by
    match a with
    | ⟨0, _⟩ => rfl
  simp only [hl, hr, hb, side_by_side, Ideal.maximumf_def, Ideal.addf_def, Ideal.ofBits_def, Ideal.ofBits_zero_f32]
  rfl

/-- The output at `(r, a)`. -/
theorem out_apply (r : Fin 16384) (a : Fin 128) :
    val_main_v29 (F := Ideal) x0 x1 x2 x3 x4 x5 x6 x7 x8 x9 (ix2 r a) = outAt x0 x1 x2 x3 x4 x5 x6 x7 x8 x9 r a := by
  rw [val_main_v29_apply, val_main_v26_apply, val_main_v28_apply, val_main_v27_apply]
  have hl : ∀ k : Fin 4096, lidx_main_v26 (ix2 r a) k = ix2 r k := fun k => funext fun b => by
    match b with
    | ⟨0, _⟩ => rfl
    | ⟨1, _⟩ => rfl
  have hr : ∀ k : Fin 4096, ridx_main_v26 (ix2 r a) k = ix2 k a := fun k => funext fun b => by
    match b with
    | ⟨0, _⟩ => rfl
    | ⟨1, _⟩ => rfl
  have hb : idx_main_v27 (idx_main_v28 (ix2 r a)) = ix1 a := funext fun b => by
    match b with
    | ⟨0, _⟩ => rfl
  simp only [hl, hr, hb, hidden_third, Ideal.addf_def]
  rfl

/-- The reference's result array is `G` of its arguments. -/
theorem ref_eq :
    val_main_v29 (F := Ideal) x0 x1 x2 x3 x4 x5 x6 x7 x8 x9 = G x0 x1 x2 x3 x4 x5 x6 x7 x8 x9 := by
  funext i
  obtain ⟨r, a, rfl⟩ : ∃ (r : Fin 16384) (a : Fin 128), i = ix2 r a := ⟨i 0, i 1, eq_ix2 i⟩
  exact out_apply x0 x1 x2 x3 x4 x5 x6 x7 x8 x9 r a

end Cert.ReferenceIdeal.RefValue

end
-- ==== Proof.lean ====
/-
  Two programs for one network. Each of two inputs of 16384 rows of 32 numbers is encoded by two ReLU layers
  (32 → 4096 → 32); the two encodings of a batch row are set side by side and passed through a ReLU layer (64 → 4096) and a
  dense layer (4096 → 128).

  The reference does this with four matrix products over the whole batch, adding each bias afterwards. The kernel works
  on blocks of 1024 batch rows: it stacks the block of the first input on the block of the second so that one product
  serves both, folds the first and third biases into the products by a column of ones against a bias row, and cuts the
  4096 hidden units into eight runs of 512, adding the eight partial products one after the other onto the second and
  fourth biases. Its operands pass through a narrower float format, which on the extended reals is the identity.

  On the extended reals both programs compute the function `Cert.TwinMlp.G` of the ten argument arrays. The reference is
  read stage by stage (Proof/ReferenceValue.lean); the kernel's output block at a grid point is read at an index
  (Proof/BlockValue.lean), its input blocks in terms of the arguments (Proof/HostArrays.lean), and the sixteen output
  blocks tile the result array (Proof/KernelValue.lean). The two laws that join the arrangements — a sum of products with a
  one as last left factor, and a sum over 4096 indices as eight runs of 512 — regroup a finite sum in a commutative monoid
  (Proof/TwinMlp.lean), so the inputs' finiteness is never used. The frames are the generated ones; the idealization
  rewrote no operation.
-/
import proofs.«165105_g11802570129985_cont_fleet_79_6_alg».proof.Defs
import proofs.«165105_g11802570129985_cont_fleet_79_6_alg».proof.Proof.Gen.Kernel
import proofs.«165105_g11802570129985_cont_fleet_79_6_alg».proof.Proof.Gen.Kernel.Skeleton
import proofs.«165105_g11802570129985_cont_fleet_79_6_alg».proof.Proof.Gen.Kernel.Launch
import proofs.«165105_g11802570129985_cont_fleet_79_6_alg».proof.Proof.Gen.Kernel.Points
import proofs.«165105_g11802570129985_cont_fleet_79_6_alg».proof.Proof.Gen.Kernel.Frame
import proofs.«165105_g11802570129985_cont_fleet_79_6_alg».proof.Proof.Gen.KernelIdeal
import proofs.«165105_g11802570129985_cont_fleet_79_6_alg».proof.Proof.Gen.KernelIdeal.Skeleton
import proofs.«165105_g11802570129985_cont_fleet_79_6_alg».proof.Proof.Gen.KernelIdeal.Launch
import proofs.«165105_g11802570129985_cont_fleet_79_6_alg».proof.Proof.Gen.KernelIdeal.Points
import proofs.«165105_g11802570129985_cont_fleet_79_6_alg».proof.Proof.Gen.KernelIdeal.Frame
import proofs.«165105_g11802570129985_cont_fleet_79_6_alg».proof.Proof.Gen.ReferenceIdeal
import proofs.«165105_g11802570129985_cont_fleet_79_6_alg».proof.Proof.Gen.Pre_finite_inputs
import proofs.«165105_g11802570129985_cont_fleet_79_6_alg».proof.Proof.Gen.KernelIdeal.Value
import proofs.«165105_g11802570129985_cont_fleet_79_6_alg».proof.Proof.Gen.ReferenceIdeal.Run
import proofs.«165105_g11802570129985_cont_fleet_79_6_alg».proof.Proof.Gen.ReferenceIdeal.Read
import proofs.«165105_g11802570129985_cont_fleet_79_6_alg».proof.Proof.KernelValue
import proofs.«165105_g11802570129985_cont_fleet_79_6_alg».proof.Proof.ReferenceValue
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference's run, with the result forgotten, is its frame. -/
theorem frame_reference_ideal : Cert.frame_ReferenceIdeal := fun m ρ _ =>
  (θ_run Cert.ReferenceIdeal.defs _ _).mono (fun _ h c => (h c).2) (Cert.ReferenceIdeal.Value.run (F := Ideal) m ρ)

/-- From memories that agree on the ten arguments both programs end with the result array at `G` of those arguments. -/
theorem algebraic : Cert.algebraic_KernelIdeal_ReferenceIdeal := by
  intro m ρ m' ρ' _ hagree
  refine ⟨fun c => Cert.KernelIdeal.ArrayValue.Gk m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  rw [Cert.ReferenceIdeal.Read.val_main_v29_eq, Cert.ReferenceIdeal.RefValue.ref_eq, h0, h1, h2, h3, h4, h5, h6, h7, h8, h9]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
